-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S2048x1024 : Shape := ⟨2, ![2048, 1024]⟩
abbrev S2048x2048 : Shape := ⟨2, ![2048, 2048]⟩
abbrev S2048x128 : Shape := ⟨2, ![2048, 128]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S2048x2048 : S_.BroadcastsInDim S2048x2048 (![] : Fin 0 → Fin S2048x2048.rank)
  reducesTo_S2048x2048_S_d0_1 : S2048x2048.ReducesTo [0, 1] S_
  bcast_S_S2048x128 : S_.BroadcastsInDim S2048x128 (![] : Fin 0 → Fin S2048x128.rank)
  reducesTo_S2048x128_S_d0_1 : S2048x128.ReducesTo [0, 1] S_

variable [Facts]

def fn_part1 {F : FTy → Type} [FloatOps F] (main_arg4 : FVec F S2048x2048 .f32) (main_arg5 : FVec F S2048x128 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048x2048 .f32 := Host.absf main_arg4
  let main_cst_6 : FVec F S_ .f32 := constant S_ .f32 0x7F800000#32
  let main_v20 : FVec F S2048x2048 .f32 := broadcastInDim S2048x2048 ![] bcast_S_S2048x2048 main_cst_6
  let main_v21 : IVec S2048x2048 1 := cmpf .olt main_v19 main_v20
  let main_c_7 : IVec S_ 1 := constantI S_ 1 1#1
  let main_v22 : IVec S_ 1 := (fun x v => Host.reduce IntOp.andi x v reducesTo_S2048x2048_S_d0_1 h_S_) main_v21 main_c_7
  let main_v23 : IVec S_ 1 := andi main_v18 main_v22
  let main_v24 : FVec F S2048x128 .f32 := Host.absf main_arg5
  let main_cst_8 : FVec F S_ .f32 := constant S_ .f32 0x7F800000#32
  let main_v25 : FVec F S2048x128 .f32 := broadcastInDim S2048x128 ![] bcast_S_S2048x128 main_cst_8
  let main_v26 : IVec S2048x128 1 := cmpf .olt main_v24 main_v25
  let main_c_9 : IVec S_ 1 := constantI S_ 1 1#1
  let main_v27 : IVec S_ 1 := (fun x v => Host.reduce IntOp.andi x v reducesTo_S2048x128_S_d0_1 h_S_) main_v26 main_c_9
  let main_v28 : IVec S_ 1 := andi main_v23 main_v27
  main_v28

def fn {F : FTy → Type} [FloatOps F] (main_arg0 : FVec F S8192x1024 .f32) (main_arg1 : FVec F S2048x1024 .f32) (main_arg2 : FVec F S2048x2048 .f32) (main_arg3 : FVec F S2048x2048 .f32) (main_arg4 : FVec F S2048x2048 .f32) (main_arg5 : FVec F S2048x128 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_arg5 main_v13 main_v16
-- ==== Kernel.lean ====
abbrev S8192x1024 : Shape := ⟨2, ![8192, 1024]⟩
abbrev S2048x1024 : Shape := ⟨2, ![2048, 1024]⟩
abbrev S2048x2048 : Shape := ⟨2, ![2048, 2048]⟩
abbrev S2048x128 : Shape := ⟨2, ![2048, 128]⟩
abbrev S8192x2048 : Shape := ⟨2, ![8192, 2048]⟩
abbrev S1024x1024 : Shape := ⟨2, ![1024, 1024]⟩
abbrev S1024x2048 : Shape := ⟨2, ![1024, 2048]⟩
abbrev S8192x128 : Shape := ⟨2, ![8192, 128]⟩
abbrev S1024x128 : Shape := ⟨2, ![1024, 128]⟩

abbrev nBuf : Space → Nat
  | .hbm => 17
  | .vmem => 25
  | .smem => 0
  | _ => 0

abbrev bufTy : (tb : Table) → Fin (tcTables nBuf tb) → BufTy
  | .hbm, ⟨0, _⟩ => ⟨S8192x1024, .f32⟩
  | .hbm, ⟨1, _⟩ => ⟨S2048x1024, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x128, .f32⟩
  | .hbm, ⟨6, _⟩ => ⟨S8192x1024, .bf16⟩
  | .hbm, ⟨7, _⟩ => ⟨S2048x1024, .bf16⟩
  | .hbm, ⟨8, _⟩ => ⟨S2048x2048, .bf16⟩
  | .hbm, ⟨9, _⟩ => ⟨S2048x2048, .bf16⟩
  | .hbm, ⟨10, _⟩ => ⟨S2048x2048, .bf16⟩
  | .hbm, ⟨11, _⟩ => ⟨S2048x128, .bf16⟩
  | .hbm, ⟨12, _⟩ => ⟨S8192x2048, .bf16⟩
  | .hbm, ⟨13, _⟩ => ⟨S8192x2048, .bf16⟩
  | .hbm, ⟨14, _⟩ => ⟨S8192x2048, .bf16⟩
  | .hbm, ⟨15, _⟩ => ⟨S8192x2048, .bf16⟩
  | .hbm, ⟨16, _⟩ => ⟨S8192x128, .f32⟩
  | .local _ .vmem, ⟨0, _⟩ => ⟨S1024x1024, .bf16⟩
  | .local _ .vmem, ⟨1, _⟩ => ⟨S1024x1024, .bf16⟩
  | .local _ .vmem, ⟨2, _⟩ => ⟨S2048x1024, .bf16⟩
  | .local _ .vmem, ⟨3, _⟩ => ⟨S1024x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .bf16⟩
  | .local _ .vmem, ⟨7, _⟩ => ⟨S2048x2048, .bf16⟩
  | .local _ .vmem, ⟨8, _⟩ => ⟨S1024x2048, .bf16⟩
  | .local _ .vmem, ⟨9, _⟩ => ⟨S1024x2048, .bf16⟩
  | .local _ .vmem, ⟨10, _⟩ => ⟨S1024x2048, .bf16⟩
  | .local _ .vmem, ⟨11, _⟩ => ⟨S1024x2048, .bf16⟩
  | .local _ .vmem, ⟨12, _⟩ => ⟨S2048x2048, .bf16⟩
  | .local _ .vmem, ⟨13, _⟩ => ⟨S1024x2048, .bf16⟩
  | .local _ .vmem, ⟨14, _⟩ => ⟨S1024x2048, .bf16⟩
  | .local _ .vmem, ⟨15, _⟩ => ⟨S1024x2048, .bf16⟩
  | .local _ .vmem, ⟨16, _⟩ => ⟨S1024x2048, .bf16⟩
  | .local _ .vmem, ⟨17, _⟩ => ⟨S2048x2048, .bf16⟩
  | .local _ .vmem, ⟨18, _⟩ => ⟨S1024x2048, .bf16⟩
  | .local _ .vmem, ⟨19, _⟩ => ⟨S1024x2048, .bf16⟩
  | .local _ .vmem, ⟨20, _⟩ => ⟨S1024x2048, .bf16⟩
  | .local _ .vmem, ⟨21, _⟩ => ⟨S1024x2048, .bf16⟩
  | .local _ .vmem, ⟨22, _⟩ => ⟨S2048x128, .bf16⟩
  | .local _ .vmem, ⟨23, _⟩ => ⟨S1024x128, .f32⟩
  | .local _ .vmem, ⟨24, _⟩ => ⟨S1024x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x2048 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S2048x2048 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1024x2048 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1024x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S2048x2048 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S1024x2048 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1024x2048 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S2048x128 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S1024x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024x2048_S1024x2048_0_0 : ∀ a, (![0, 0] : Fin 2 → Nat) a + S1024x2048.size a ≤ S1024x2048.size a
  h_S1024x2048 : 0 < S1024x2048.numel
  packedbf16_S1024x2048_S1024x2048_0_0 : (Rect.unit (s := S1024x2048) ![0, 0] S1024x2048.size inb_S1024x2048_S1024x2048_0_0).PackedRows (EltTy.packing .bf16)
  shapeCasts_S1024x2048_S1024x2048 : S1024x2048.ShapeCasts S1024x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S1024x128_S1024x128_0_0 : ∀ a, (![0, 0] : Fin 2 → Nat) a + S1024x128.size a ≤ S1024x128.size a
  h_S1024x128 : 0 < S1024x128.numel
  dot_S1024x1024_S2048x1024_S1024x2048_1_1_0_0_n_n_wf : DotDims.WF S1024x1024 S2048x1024 S1024x2048 [1] [1] [0] [0] [] []
  dot_S1024x2048_S2048x2048_S1024x2048_1_1_0_0_n_n_wf : DotDims.WF S1024x2048 S2048x2048 S1024x2048 [1] [1] [0] [0] [] []
  dot_S1024x2048_S2048x128_S1024x128_1_0_0_1_n_n_wf : DotDims.WF S1024x2048 S2048x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .bf16 = 32 ∨ (Rect.block (s := S8192x1024) S1024x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S2048x1024.size a
  hwx0_1 : ∀ i : grid0.Coords, EltTy.bits .bf16 = 32 ∨ (Rect.block (s := S2048x1024) S2048x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x2048.size a ≤ S8192x2048.size a
  hwx0_2 : ∀ i : grid0.Coords, EltTy.bits .bf16 = 32 ∨ (Rect.block (s := S8192x2048) S1024x2048.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S8192x2048.size a
  hwx1_0 : ∀ i : grid1.Coords, EltTy.bits .bf16 = 32 ∨ (Rect.block (s := S8192x2048) S1024x2048.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x2048.size a ≤ S2048x2048.size a
  hwx1_1 : ∀ i : grid1.Coords, EltTy.bits .bf16 = 32 ∨ (Rect.block (s := S2048x2048) S2048x2048.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x2048.size a ≤ S8192x2048.size a
  hwx1_2 : ∀ i : grid1.Coords, EltTy.bits .bf16 = 32 ∨ (Rect.block (s := S8192x2048) S1024x2048.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x2048.size a ≤ S8192x2048.size a
  hwx2_0 : ∀ i : grid2.Coords, EltTy.bits .bf16 = 32 ∨ (Rect.block (s := S8192x2048) S1024x2048.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S2048x2048.size a ≤ S2048x2048.size a
  hwx2_1 : ∀ i : grid2.Coords, EltTy.bits .bf16 = 32 ∨ (Rect.block (s := S2048x2048) S2048x2048.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x2048.size a ≤ S8192x2048.size a
  hwx2_2 : ∀ i : grid2.Coords, EltTy.bits .bf16 = 32 ∨ (Rect.block (s := S8192x2048) S1024x2048.size (cc2_transform_2 i) (hinb2_2 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x2048.size a ≤ S8192x2048.size a
  hwx3_0 : ∀ i : grid3.Coords, EltTy.bits .bf16 = 32 ∨ (Rect.block (s := S8192x2048) S1024x2048.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S2048x2048.size a ≤ S2048x2048.size a
  hwx3_1 : ∀ i : grid3.Coords, EltTy.bits .bf16 = 32 ∨ (Rect.block (s := S2048x2048) S2048x2048.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024x2048.size a ≤ S8192x2048.size a
  hwx3_2 : ∀ i : grid3.Coords, EltTy.bits .bf16 = 32 ∨ (Rect.block (s := S8192x2048) S1024x2048.size (cc3_transform_2 i) (hinb3_2 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x2048.size a ≤ S8192x2048.size a
  hwx4_0 : ∀ i : grid4.Coords, EltTy.bits .bf16 = 32 ∨ (Rect.block (s := S8192x2048) S1024x2048.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S2048x128.size a ≤ S2048x128.size a
  hwx4_1 : ∀ i : grid4.Coords, EltTy.bits .bf16 = 32 ∨ (Rect.block (s := S2048x128) S2048x128.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1024x128.size a ≤ S8192x128.size a
  hwx4_2 : ∀ i : grid4.Coords, EltTy.bits .f32 = 32 ∨ (Rect.block (s := S8192x128) S1024x128.size (cc4_transform_2 i) (hinb4_2 i)).WholeWords (EltTy.packing .f32)

variable [Facts₀]

def dot_S1024x1024_S2048x1024_S1024x2048_1_1_0_0_n_n : DotDims S1024x1024 S2048x1024 S1024x2048 where
  lhsContracting := [1]
  rhsContracting := [1]
  lhsNonContracting := [0]
  rhsNonContracting := [0]
  lhsBatch := []
  rhsBatch := []
  wf := dot_S1024x1024_S2048x1024_S1024x2048_1_1_0_0_n_n_wf
def dot_S1024x2048_S2048x2048_S1024x2048_1_1_0_0_n_n : DotDims S1024x2048 S2048x2048 S1024x2048 where
  lhsContracting := [1]
  rhsContracting := [1]
  lhsNonContracting := [0]
  rhsNonContracting := [0]
  lhsBatch := []
  rhsBatch := []
  wf := dot_S1024x2048_S2048x2048_S1024x2048_1_1_0_0_n_n_wf
def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1024x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v6) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S2048x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1024x2048.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v7) S1024x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S2048x2048.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v8) S1024x2048.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v8) S1024x2048.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v4) S2048x2048.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v9) S1024x2048.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v9) S1024x2048.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v5) S2048x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v10) S1024x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S8192x1024 : Shape := ⟨2, ![8192, 1024]⟩
abbrev S2048x1024 : Shape := ⟨2, ![2048, 1024]⟩
abbrev S2048x2048 : Shape := ⟨2, ![2048, 2048]⟩
abbrev S2048x128 : Shape := ⟨2, ![2048, 128]⟩
abbrev S1024x2048 : Shape := ⟨2, ![1024, 2048]⟩
abbrev S8192x2048 : Shape := ⟨2, ![8192, 2048]⟩
abbrev S_ : Shape := ⟨0, ![]⟩
abbrev S8192x128 : Shape := ⟨2, ![8192, 128]⟩

abbrev nBuf : Space → Nat
  | .hbm => 42
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2048x1024, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x128, .f32⟩
  | .hbm, ⟨6, _⟩ => ⟨S1024x2048, .f32⟩
  | .hbm, ⟨7, _⟩ => ⟨S8192x2048, .f32⟩
  | .hbm, ⟨8, _⟩ => ⟨S_, .f32⟩
  | .hbm, ⟨9, _⟩ => ⟨S8192x2048, .f32⟩
  | .hbm, ⟨10, _⟩ => ⟨S8192x2048, .f32⟩
  | .hbm, ⟨11, _⟩ => ⟨S_, .f32⟩
  | .hbm, ⟨12, _⟩ => ⟨S8192x2048, .f32⟩
  | .hbm, ⟨13, _⟩ => ⟨S8192x2048, .f32⟩
  | .hbm, ⟨14, _⟩ => ⟨S2048x2048, .f32⟩
  | .hbm, ⟨15, _⟩ => ⟨S8192x2048, .f32⟩
  | .hbm, ⟨16, _⟩ => ⟨S_, .f32⟩
  | .hbm, ⟨17, _⟩ => ⟨S8192x2048, .f32⟩
  | .hbm, ⟨18, _⟩ => ⟨S8192x2048, .f32⟩
  | .hbm, ⟨19, _⟩ => ⟨S_, .f32⟩
  | .hbm, ⟨20, _⟩ => ⟨S8192x2048, .f32⟩
  | .hbm, ⟨21, _⟩ => ⟨S8192x2048, .f32⟩
  | .hbm, ⟨22, _⟩ => ⟨S2048x2048, .f32⟩
  | .hbm, ⟨23, _⟩ => ⟨S8192x2048, .f32⟩
  | .hbm, ⟨24, _⟩ => ⟨S_, .f32⟩
  | .hbm, ⟨25, _⟩ => ⟨S8192x2048, .f32⟩
  | .hbm, ⟨26, _⟩ => ⟨S8192x2048, .f32⟩
  | .hbm, ⟨27, _⟩ => ⟨S_, .f32⟩
  | .hbm, ⟨28, _⟩ => ⟨S8192x2048, .f32⟩
  | .hbm, ⟨29, _⟩ => ⟨S8192x2048, .f32⟩
  | .hbm, ⟨30, _⟩ => ⟨S2048x2048, .f32⟩
  | .hbm, ⟨31, _⟩ => ⟨S8192x2048, .f32⟩
  | .hbm, ⟨32, _⟩ => ⟨S_, .f32⟩
  | .hbm, ⟨33, _⟩ => ⟨S8192x2048, .f32⟩
  | .hbm, ⟨34, _⟩ => ⟨S8192x2048, .f32⟩
  | .hbm, ⟨35, _⟩ => ⟨S_, .f32⟩
  | .hbm, ⟨36, _⟩ => ⟨S8192x2048, .f32⟩
  | .hbm, ⟨37, _⟩ => ⟨S8192x2048, .f32⟩
  | .hbm, ⟨38, _⟩ => ⟨S8192x128, .f32⟩
  | .hbm, ⟨39, _⟩ => ⟨S_, .f32⟩
  | .hbm, ⟨40, _⟩ => ⟨S8192x128, .f32⟩
  | .hbm, ⟨41, _⟩ => ⟨S8192x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_call0_cst : Ref sig .tc := ⟨.hbm, 11, rfl⟩
abbrev main_call0_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_call1_cst : Ref sig .tc := ⟨.hbm, 19, rfl⟩
abbrev main_call1_v0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_call2_cst : Ref sig .tc := ⟨.hbm, 27, rfl⟩
abbrev main_call2_v0 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_2 : Ref sig .tc := ⟨.hbm, 32, rfl⟩
abbrev main_v17 : Ref sig .tc := ⟨.hbm, 33, rfl⟩
abbrev main_v18 : Ref sig .tc := ⟨.hbm, 34, rfl⟩
abbrev main_call3_cst : Ref sig .tc := ⟨.hbm, 35, rfl⟩
abbrev main_call3_v0 : Ref sig .tc := ⟨.hbm, 36, rfl⟩
abbrev main_v19 : Ref sig .tc := ⟨.hbm, 37, rfl⟩
abbrev main_v20 : Ref sig .tc := ⟨.hbm, 38, rfl⟩
abbrev main_cst_3 : Ref sig .tc := ⟨.hbm, 39, rfl⟩
abbrev main_v21 : Ref sig .tc := ⟨.hbm, 40, rfl⟩
abbrev main_v22 : Ref sig .tc := ⟨.hbm, 41, rfl⟩

abbrev nD : Nat := 1
abbrev τ : Topo := Topo.v7x

variable {F : FTy → Type} [FloatOps F]

class Facts₀ : Prop where
  transposes_S2048x1024_S1024x2048_1_0 : S2048x1024.Transposes [1, 0] S1024x2048
  bcast_S_S8192x2048 : S_.BroadcastsInDim S8192x2048 (![] : Fin 0 → Fin S8192x2048.rank)
  transposes_S2048x2048_S2048x2048_1_0 : S2048x2048.Transposes [1, 0] S2048x2048
  bcast_S_S8192x128 : S_.BroadcastsInDim S8192x128 (![] : Fin 0 → Fin S8192x128.rank)
  dot_S8192x1024_S1024x2048_S8192x2048_1_0_0_1_n_n_wf : DotDims.WF S8192x1024 S1024x2048 S8192x2048 [1] [0] [0] [1] [] []
  dot_S8192x2048_S2048x2048_S8192x2048_1_0_0_1_n_n_wf : DotDims.WF S8192x2048 S2048x2048 S8192x2048 [1] [0] [0] [1] [] []
  dot_S8192x2048_S2048x128_S8192x128_1_0_0_1_n_n_wf : DotDims.WF S8192x2048 S2048x128 S8192x128 [1] [0] [0] [1] [] []

variable [Facts₀]

def dot_S8192x1024_S1024x2048_S8192x2048_1_0_0_1_n_n : DotDims S8192x1024 S1024x2048 S8192x2048 where
  lhsContracting := [1]
  rhsContracting := [0]
  lhsNonContracting := [0]
  rhsNonContracting := [1]
  lhsBatch := []
  rhsBatch := []
  wf := dot_S8192x1024_S1024x2048_S8192x2048_1_0_0_1_n_n_wf
def dot_S8192x2048_S2048x2048_S8192x2048_1_0_0_1_n_n : DotDims S8192x2048 S2048x2048 S8192x2048 where
  lhsContracting := [1]
  rhsContracting := [0]
  lhsNonContracting := [0]
  rhsNonContracting := [1]
  lhsBatch := []
  rhsBatch := []
  wf := dot_S8192x2048_S2048x2048_S8192x2048_1_0_0_1_n_n_wf
def dot_S8192x2048_S2048x128_S8192x128_1_0_0_1_n_n : DotDims S8192x2048 S2048x128 S8192x128 where
  lhsContracting := [1]
  rhsContracting := [0]
  lhsNonContracting := [0]
  rhsNonContracting := [1]
  lhsBatch := []
  rhsBatch := []
  wf := dot_S8192x2048_S2048x128_S8192x128_1_0_0_1_n_n_wf

class Facts : Prop extends Facts₀ where

variable [Facts]
-- ==== Proof.Layers.lean ====
/-
  The network's two kinds of layer as functions on arrays of extended reals, index by index.

  A hidden layer takes activations `a` of shape [M, K] and weights `w` stored output-major, [N, K], and returns at (r, n)

      max ((∑ k, a (r, k) · w (n, k)) · s) z

  — the product with the transposed weights, scaled by `s`, clamped below at `z` (the programs pass the value of the
  zero pattern for `z`, which makes it a ReLU; the statement does not need to know that). The readout takes weights
  stored input-major, [K, N], and returns (∑ k, a (r, k) · b (k, n)) · s. Both are sums in the extended reals in whatever
  order: addition there is commutative and associative, so a finite sum is well defined and no finiteness of the
  entries is asked. A block of rows of a layer's result depends only on the same rows of the activations
  (`hidden_rows`, `readout_rows`): that is why a kernel that works through the rows a tile at a time computes the layer.
-/
import Idealize.ShloMosaic.PureOps.Ideal
import Idealize.ShloMosaic.Lib.ValueIdx

noncomputable section

namespace Cert.Mlp

open Idealize.ShloMosaic Idealize.ShloMosaic.ValueIdx

/-- One hidden layer: rows of the activations against rows of the (output-major) weights, scaled, clamped below. -/
def hidden {M K N : Nat} (s z : EReal) (a : (⟨2, ![M, K]⟩ : Shape).Idx → EReal) (w : (⟨2, ![N, K]⟩ : Shape).Idx → EReal) :
    (⟨2, ![M, N]⟩ : Shape).Idx → EReal :=
  fun i => max ((∑ k : Fin K, a (ix2 (i 0) k) * w (ix2 (i 1) k)) * s) z

/-- The readout: rows of the activations against columns of the (input-major) weights, scaled. -/
def readout {M K N : Nat} (s : EReal) (a : (⟨2, ![M, K]⟩ : Shape).Idx → EReal) (b : (⟨2, ![K, N]⟩ : Shape).Idx → EReal) :
    (⟨2, ![M, N]⟩ : Shape).Idx → EReal :=
  fun i => (∑ k : Fin K, a (ix2 (i 0) k) * b (ix2 k (i 1))) * s

theorem hidden_apply {M K N : Nat} (s z : EReal) (a : (⟨2, ![M, K]⟩ : Shape).Idx → EReal)
    (w : (⟨2, ![N, K]⟩ : Shape).Idx → EReal) (r : Fin M) (n : Fin N) :
    hidden s z a w (ix2 r n) = max ((∑ k : Fin K, a (ix2 r k) * w (ix2 n k)) * s) z := rfl

theorem readout_apply {M K N : Nat} (s : EReal) (a : (⟨2, ![M, K]⟩ : Shape).Idx → EReal)
    (b : (⟨2, ![K, N]⟩ : Shape).Idx → EReal) (r : Fin M) (n : Fin N) :
    readout s a b (ix2 r n) = (∑ k : Fin K, a (ix2 r k) * b (ix2 k n)) * s := rfl

/-- A tile of rows of a hidden layer's result is the layer of that tile of the activations: if row `p` of the tile `x` is
    row `r` of `a`, and the tile's copy `v` of the weights is the weights, the tile's layer at (p, n) is the whole layer at (r, n). -/
theorem hidden_rows {M K N T : Nat} (s z : EReal) (a : (⟨2, ![M, K]⟩ : Shape).Idx → EReal)
    (w : (⟨2, ![N, K]⟩ : Shape).Idx → EReal) (x : (⟨2, ![T, K]⟩ : Shape).Idx → EReal)
    (v : (⟨2, ![N, K]⟩ : Shape).Idx → EReal) (p : Fin T) (n : Fin N) (r : Fin M)
    (hx : ∀ k : Fin K, x (ix2 p k) = a (ix2 r k)) (hv : ∀ k : Fin K, v (ix2 n k) = w (ix2 n k)) :
    max ((∑ k : Fin K, x (ix2 p k) * v (ix2 n k)) * s) z = hidden s z a w (ix2 r n) := by
  rw [hidden_apply]
  exact congrArg (fun u => max (u * s) z) (Finset.sum_congr rfl fun k _ => by rw [hx k, hv k])

/-- The same for the readout. -/
theorem readout_rows {M K N T : Nat} (s : EReal) (a : (⟨2, ![M, K]⟩ : Shape).Idx → EReal)
    (b : (⟨2, ![K, N]⟩ : Shape).Idx → EReal) (x : (⟨2, ![T, K]⟩ : Shape).Idx → EReal)
    (v : (⟨2, ![K, N]⟩ : Shape).Idx → EReal) (p : Fin T) (n : Fin N) (r : Fin M)
    (hx : ∀ k : Fin K, x (ix2 p k) = a (ix2 r k)) (hv : ∀ k : Fin K, v (ix2 k n) = b (ix2 k n)) :
    (∑ k : Fin K, x (ix2 p k) * v (ix2 k n)) * s = readout s a b (ix2 r n) := by
  rw [readout_apply]
  exact congrArg (fun u => u * s) (Finset.sum_congr rfl fun k _ => by rw [hx k, hv k])

/-! ## The constants both programs spell, and the network -/

/-- The first layer's scale, 1/√1024 = 1/32: the value of the pattern both programs print (never evaluated). -/
abbrev sFirst : EReal := Ideal.ofBits .f32 0x3D000000#32
/-- The later hidden layers' scale: the value of the single-precision pattern nearest 1/√2048, which both programs print
    as the same word — so whatever real it denotes, it is the same on both sides and is never evaluated. -/
abbrev sHidden : EReal := Ideal.ofBits .f32 0x3CB504F3#32
/-- The clamp's floor: the value of the zero pattern. -/
abbrev floor0 : EReal := Ideal.ofBits .f32 0x00000000#32
/-- The readout's scale as the kernel spells it, 2^(-11). -/
abbrev sOut : EReal := Ideal.ofBits .f32 0x3A000000#32

/-- The whole network: four hidden layers and the readout. -/
def mlp (x : (⟨2, ![8192, 1024]⟩ : Shape).Idx → EReal) (w0 : (⟨2, ![2048, 1024]⟩ : Shape).Idx → EReal)
    (w1 w2 w3 : (⟨2, ![2048, 2048]⟩ : Shape).Idx → EReal) (b : (⟨2, ![2048, 128]⟩ : Shape).Idx → EReal) :
    (⟨2, ![8192, 128]⟩ : Shape).Idx → EReal :=
  readout sOut (hidden sHidden floor0 (hidden sHidden floor0 (hidden sHidden floor0 (hidden sFirst floor0 x w0) w1) w2) w3) b

end Cert.Mlp

end
-- ==== Proof.Tile0.lean ====
/-
  Region 0 (the first hidden layer's kernel) read as a value. At a grid point t the kernel loads rows 1024·t … 1024·t + 1023
  of the activations and the whole weight matrix, multiplies the tile by the transposed weights into a zero accumulator,
  scales by 1/32, clamps below at zero and stores the tile of the result; at the extended reals the accumulated product is
  the plain sum over the contracted axis and the change of float format is the identity, so the tile is the hidden layer
  of those rows (`Mlp.hidden_rows`). The eight tiles partition the rows, so after the region the result array is the
  hidden layer of the arrays the region found.
-/
import proofs.«153317_j13855564497555_1_alg».proof.Proof.Gen.KernelIdeal.Frame
import proofs.«153317_j13855564497555_1_alg».proof.Proof.Layers
import Idealize.ShloMosaic.Lib.Pipeline.Value
import Idealize.ShloMosaic.Lib.ValueIdx
import Idealize.ShloMosaic.PureOps.Ideal.Laws

set_option maxRecDepth 16384

noncomputable section

namespace Cert.KernelIdeal.Tiles

open Cert.KernelIdeal Cert.KernelIdeal.Gen Cert.Mlp
open Idealize.ShloMosaic Idealize.ShloMosaic.TcCoe Idealize.ShloMosaic.ValueIdx Idealize.SL.Sem
open Idealize.ShloMosaic.Pipeline (Dat Cfg Window)

/-- The zero offsets of a whole-tile access, as a constant function. -/
theorem hz : (![0, 0] : Fin 2 → Nat) = fun _ => 0 := funext fun a => by fin_cases a <;> rfl

/-! ## The product's operand indices: tile [1024, 1024] against weights [2048, 1024], both contracted on their second axis -/

theorem lhs0_0 (i : S1024x2048.Idx) (q : dot_S1024x1024_S2048x1024_S1024x2048_1_1_0_0_n_n.contr.Idx) :
    (dot_S1024x1024_S2048x1024_S1024x2048_1_1_0_0_n_n.lhsIdx i q 0).val = (i 0).val := by
  unfold DotDims.lhsIdx
  rw [dif_neg (show ¬(0 : Fin S1024x1024.rank) ∈ dot_S1024x1024_S2048x1024_S1024x2048_1_1_0_0_n_n.lhsBatch by decide), dif_pos (show (0 : Fin S1024x1024.rank) ∈ dot_S1024x1024_S2048x1024_S1024x2048_1_1_0_0_n_n.lhsNonContracting by decide)]
  rfl
theorem lhs0_1 (i : S1024x2048.Idx) (q : dot_S1024x1024_S2048x1024_S1024x2048_1_1_0_0_n_n.contr.Idx) :
    (dot_S1024x1024_S2048x1024_S1024x2048_1_1_0_0_n_n.lhsIdx i q 1).val = (q ⟨0, by decide⟩).val :=
  dot_S1024x1024_S2048x1024_S1024x2048_1_1_0_0_n_n.lhsIdx_val_of_single rfl i q
theorem rhs0_0 (i : S1024x2048.Idx) (q : dot_S1024x1024_S2048x1024_S1024x2048_1_1_0_0_n_n.contr.Idx) :
    (dot_S1024x1024_S2048x1024_S1024x2048_1_1_0_0_n_n.rhsIdx i q 0).val = (i 1).val := by
  unfold DotDims.rhsIdx
  rw [dif_neg (show ¬(0 : Fin S2048x1024.rank) ∈ dot_S1024x1024_S2048x1024_S1024x2048_1_1_0_0_n_n.rhsBatch by decide), dif_pos (show (0 : Fin S2048x1024.rank) ∈ dot_S1024x1024_S2048x1024_S1024x2048_1_1_0_0_n_n.rhsNonContracting by decide)]
  rfl
theorem rhs0_1 (i : S1024x2048.Idx) (q : dot_S1024x1024_S2048x1024_S1024x2048_1_1_0_0_n_n.contr.Idx) :
    (dot_S1024x1024_S2048x1024_S1024x2048_1_1_0_0_n_n.rhsIdx i q 1).val = (q ⟨0, by decide⟩).val :=
  dot_S1024x1024_S2048x1024_S1024x2048_1_1_0_0_n_n.rhsIdx_val_of_single rfl i q

/-- The tile's product into the zero accumulator, at (p, n): the sum over k of x (p, k) · w (n, k). -/
theorem prod0_apply (x : FVec Ideal S1024x1024 .bf16) (w : FVec Ideal S2048x1024 .bf16) (p : Fin 1024) (n : Fin 2048) :
    FloatOps.matmul dot_S1024x1024_S2048x1024_S1024x2048_1_1_0_0_n_n none x w (constant (F := Ideal) S1024x2048 .f32 0x00000000#32) (ix2 p n)
      = ∑ k : Fin 1024, x (ix2 p k) * w (ix2 n k) := by
  rw [Ideal.matmul_constant_zero_apply, ← Equiv.sum_comp (ValueIdx.contrEquiv1 dot_S1024x1024_S2048x1024_S1024x2048_1_1_0_0_n_n 1024 rfl rfl).symm]
  refine Finset.sum_congr rfl fun k _ => ?_
  have hk := ValueIdx.contrEquiv1_symm_val dot_S1024x1024_S2048x1024_S1024x2048_1_1_0_0_n_n 1024 rfl rfl k
  have el : dot_S1024x1024_S2048x1024_S1024x2048_1_1_0_0_n_n.lhsIdx (ix2 p n) ((ValueIdx.contrEquiv1 dot_S1024x1024_S2048x1024_S1024x2048_1_1_0_0_n_n 1024 rfl rfl).symm k) = ix2 p k := funext fun a => Fin.ext (by
    match a with
    | ⟨0, _⟩ => exact lhs0_0 _ _
    | ⟨1, _⟩ => exact (lhs0_1 _ _).trans hk)
  have er : dot_S1024x1024_S2048x1024_S1024x2048_1_1_0_0_n_n.rhsIdx (ix2 p n) ((ValueIdx.contrEquiv1 dot_S1024x1024_S2048x1024_S1024x2048_1_1_0_0_n_n 1024 rfl rfl).symm k) = ix2 n k := funext fun a => Fin.ext (by
    match a with
    | ⟨0, _⟩ => exact rhs0_0 _ _
    | ⟨1, _⟩ => exact (rhs0_1 _ _).trans hk)
  rw [el, er]

/-- The body's stored tile at (p, n), from its two loaded tiles. -/
theorem pay0_apply (x : Vec Ideal S1024x1024 .bf16) (w : Vec Ideal S2048x1024 .bf16) (p : Fin 1024) (n : Fin 2048) :
    k0_pay1 (F := Ideal) x w (ix2 p n) = max ((∑ k : Fin 1024, x (ix2 p k) * w (ix2 n k)) * sFirst) floor0 := by
  unfold k0_pay1
  show max (FloatOps.matmul dot_S1024x1024_S2048x1024_S1024x2048_1_1_0_0_n_n none (shapeCast S1024x1024 x _) (shapeCast S2048x1024 w _) (constant (F := Ideal) S1024x2048 .f32 0x00000000#32) (ix2 p n) * sFirst) floor0 = _
  rw [shapeCast_self, shapeCast_self, prod0_apply]

/-- A stored tile against the whole layer: when the loaded tile `x` holds the rows of `X` from `o` on and the loaded
    weights are `W`, the tile at `j` is the layer of `X` and `W` at the array index `i` that `j` lands on. -/
theorem tile0 (X : S8192x1024.Idx → EReal) (W : S2048x1024.Idx → EReal)
    (x : Vec Ideal S1024x1024 .bf16) (w : Vec Ideal S2048x1024 .bf16) (o : Nat)
    (hx : ∀ (p : Fin 1024) (k : Fin 1024) (r : Fin 8192), r.val = o + p.val → x (ix2 p k) = X (ix2 r k))
    (hw : ∀ (n : Fin 2048) (k : Fin 1024), w (ix2 n k) = W (ix2 n k))
    (j : S1024x2048.Idx) (i : S8192x2048.Idx) (h0 : (i 0).val = o + (j 0).val) (h1 : (i 1).val = (j 1).val) :
    k0_pay1 (F := Ideal) x w j = hidden (M := 8192) (K := 1024) (N := 2048) sFirst floor0 X W i := by
  obtain ⟨p, n, rfl⟩ : ∃ (p : Fin 1024) (n : Fin 2048), j = ix2 p n := ⟨j 0, j 1, eq_ix2 j⟩
  obtain ⟨r, n', rfl⟩ : ∃ (r : Fin 8192) (n' : Fin 2048), i = ix2 r n' := ⟨i 0, i 1, eq_ix2 i⟩
  have hn : n' = n := Fin.ext h1
  subst hn
  rw [pay0_apply]
  exact hidden_rows sFirst floor0 X W x w p n' r (fun k => hx p k r h0) (fun k => hw n' k)

/-! ## The windows' blocks on the grid -/

theorem idx0_0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx0_1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem idx0_2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)

section
variable (V : (c : Dev nD) → (b : Ref sig .tc) → Buf (Elt Ideal) ((c : Thread nD τ).loc b))

/-- What point `t` writes back is tile `t` of the hidden layer of the arrays the region found. -/
theorem flushed0 (c : Dev nD) (t : Fin cfg0.N) :
    (dat0 (F := Ideal) V c).flushed 2 t
      = ((cfg0.win 2).blk t).view.read (Elt Ideal) (hidden (M := 8192) (K := 1024) (N := 2048) sFirst floor0 (V c main_v0) (V c main_v1)) := by
  show (cfg0.win 2).cut (grid0.coords t) ((dat0 V c).after 2 t) = _
  rw [after0_2]
  unfold out0_2
  rw [View.canon_unit_zero hz]
  simp only [View.ld_unit_zero (S := S1024x1024) hz, View.ld_unit_zero (S := S2048x1024) hz]
  obtain ⟨a00, a01⟩ := idx0_0 t
  obtain ⟨a10, a11⟩ := idx0_1 t
  obtain ⟨a20, a21⟩ := idx0_2 t
  have hx : ∀ (p : Fin 1024) (k : Fin 1024) (r : Fin 8192), r.val = t.val * 1024 + p.val → iblk0 V c 0 t (ix2 p k) = V c main_v0 (ix2 r k) := fun p k r hr => by
    show V c main_v0 (((cfg0.win 0).blk t).view.emb (ix2 p k)) = V c main_v0 (ix2 r k)
    refine congrArg (V c main_v0) (funext fun a => Fin.ext ?_)
    match a with
    | ⟨0, _⟩ => show win0_0.index t (0 : Fin 2) * 1024 + 1 * p.val = r.val; omega
    | ⟨1, _⟩ => show win0_0.index t (1 : Fin 2) * 1024 + 1 * k.val = k.val; omega
  have hw : ∀ (n : Fin 2048) (k : Fin 1024), iblk0 V c 1 t (ix2 n k) = V c main_v1 (ix2 n k) := fun n k => by
    show V c main_v1 (((cfg0.win 1).blk t).view.emb (ix2 n k)) = V c main_v1 (ix2 n k)
    refine congrArg (V c main_v1) (funext fun a => Fin.ext ?_)
    match a with
    | ⟨0, _⟩ => show win0_1.index t (0 : Fin 2) * 2048 + 1 * n.val = n.val; omega
    | ⟨1, _⟩ => show win0_1.index t (1 : Fin 2) * 1024 + 1 * k.val = k.val; omega
  funext j
  show k0_pay1 (F := Ideal) (iblk0 V c 0 t) (iblk0 V c 1 t) j
    = hidden (M := 8192) (K := 1024) (N := 2048) sFirst floor0 (V c main_v0) (V c main_v1) (((cfg0.win 2).blk t).view.emb j)
  refine tile0 (V c main_v0) (V c main_v1) (iblk0 V c 0 t) (iblk0 V c 1 t) (t.val * 1024) hx hw j (((cfg0.win 2).blk t).view.emb j) ?_ ?_
  · show win0_2.index t (0 : Fin 2) * 1024 + 1 * (j 0).val = t.val * 1024 + (j 0).val; omega
  · show win0_2.index t (1 : Fin 2) * 2048 + 1 * (j 1).val = (j 1).val; omega

/-- An index of the result array is in point `t`'s tile iff each coordinate is in the tile's range on its axis. -/
theorem mem_blk0 (t : Fin cfg0.N) (i : S8192x2048.Idx) :
    i ∈ ((cfg0.win 2).blk t).view.set ↔ ∀ a : Fin 2, win0_2.index t a * S1024x2048.size a ≤ (i a).val ∧ (i a).val < win0_2.index t a * S1024x2048.size a + S1024x2048.size a := by
  show i ∈ ((View.whole main_v6).slice (win0_2.rect t)).set ↔ _
  rw [View.set_slice_whole, Rect.mem_set_unit]
  exact Iff.rfl

/-- Every index of the result array is in the tile of the point its row falls to. -/
theorem cover0 (i : S8192x2048.Idx) : ∃ t : Fin cfg0.N, (cfg0.win 2).flush t = true ∧ i ∈ ((cfg0.win 2).blk t).view.set := by
  have hi0 : (i 0).val < 8192 := (i 0).isLt
  have hi1 : (i 1).val < 2048 := (i 1).isLt
  have hN : cfg0.N = 8 := rfl
  obtain ⟨t, ht⟩ : ∃ t : Fin cfg0.N, t.val = (i 0).val / 1024 := ⟨⟨(i 0).val / 1024, by omega⟩, rfl⟩
  obtain ⟨a20, a21⟩ := idx0_2 t
  refine ⟨t, flush0_2 t, ?_⟩
  rw [mem_blk0]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 2048 ≤ (i 1).val ∧ (i 1).val < win0_2.index t (1 : Fin 2) * 2048 + 2048; omega

/-- After region 0 its result array is the first hidden layer of the arrays it found. -/
theorem final0 (c : Dev nD) :
    (dat0 (F := Ideal) V c).arrAt 2 cfg0.N = hidden (M := 8192) (K := 1024) (N := 2048) sFirst floor0 (V c main_v0) (V c main_v1) :=
  (dat0 (F := Ideal) V c).arrAt_eq_of_cover 2 _ (fun t _ => flushed0 V c t) cover0

end

end Cert.KernelIdeal.Tiles

end
-- ==== Proof.Tile1.lean ====
/-
  The body of the second to fourth hidden layers' kernels read as a value. The three kernels are one function at the
  same shapes — tile [1024, 2048] of the activations against the whole [2048, 2048] weights, both contracted on their second
  axis, scale by the word both programs print for 1/√2048, clamp below at zero — so the tile's value is read once
  (`pay1_apply`) and stated for any body function that is this one (`tileH`); where each region's tiles sit is the
  regions' own modules.
-/
import proofs.«153317_j13855564497555_1_alg».proof.Proof.Gen.KernelIdeal.Frame
import proofs.«153317_j13855564497555_1_alg».proof.Proof.Layers
import Idealize.ShloMosaic.Lib.Pipeline.Value
import Idealize.ShloMosaic.Lib.ValueIdx
import Idealize.ShloMosaic.PureOps.Ideal.Laws

set_option maxRecDepth 16384

noncomputable section

namespace Cert.KernelIdeal.Tiles

open Cert.KernelIdeal Cert.KernelIdeal.Gen Cert.Mlp
open Idealize.ShloMosaic Idealize.ShloMosaic.TcCoe Idealize.ShloMosaic.ValueIdx Idealize.SL.Sem
open Idealize.ShloMosaic.Pipeline (Dat Cfg Window)

/-! ## The product's operand indices: tile [1024, 2048] against weights [2048, 2048], both contracted on their second axis -/

theorem lhs1_0 (i : S1024x2048.Idx) (q : dot_S1024x2048_S2048x2048_S1024x2048_1_1_0_0_n_n.contr.Idx) :
    (dot_S1024x2048_S2048x2048_S1024x2048_1_1_0_0_n_n.lhsIdx i q 0).val = (i 0).val := by
  unfold DotDims.lhsIdx
  rw [dif_neg (show ¬(0 : Fin S1024x2048.rank) ∈ dot_S1024x2048_S2048x2048_S1024x2048_1_1_0_0_n_n.lhsBatch by decide), dif_pos (show (0 : Fin S1024x2048.rank) ∈ dot_S1024x2048_S2048x2048_S1024x2048_1_1_0_0_n_n.lhsNonContracting by decide)]
  rfl
theorem lhs1_1 (i : S1024x2048.Idx) (q : dot_S1024x2048_S2048x2048_S1024x2048_1_1_0_0_n_n.contr.Idx) :
    (dot_S1024x2048_S2048x2048_S1024x2048_1_1_0_0_n_n.lhsIdx i q 1).val = (q ⟨0, by decide⟩).val :=
  dot_S1024x2048_S2048x2048_S1024x2048_1_1_0_0_n_n.lhsIdx_val_of_single rfl i q
theorem rhs1_0 (i : S1024x2048.Idx) (q : dot_S1024x2048_S2048x2048_S1024x2048_1_1_0_0_n_n.contr.Idx) :
    (dot_S1024x2048_S2048x2048_S1024x2048_1_1_0_0_n_n.rhsIdx i q 0).val = (i 1).val := by
  unfold DotDims.rhsIdx
  rw [dif_neg (show ¬(0 : Fin S2048x2048.rank) ∈ dot_S1024x2048_S2048x2048_S1024x2048_1_1_0_0_n_n.rhsBatch by decide), dif_pos (show (0 : Fin S2048x2048.rank) ∈ dot_S1024x2048_S2048x2048_S1024x2048_1_1_0_0_n_n.rhsNonContracting by decide)]
  rfl
theorem rhs1_1 (i : S1024x2048.Idx) (q : dot_S1024x2048_S2048x2048_S1024x2048_1_1_0_0_n_n.contr.Idx) :
    (dot_S1024x2048_S2048x2048_S1024x2048_1_1_0_0_n_n.rhsIdx i q 1).val = (q ⟨0, by decide⟩).val :=
  dot_S1024x2048_S2048x2048_S1024x2048_1_1_0_0_n_n.rhsIdx_val_of_single rfl i q

/-- The tile's product into the zero accumulator, at (p, n): the sum over k of x (p, k) · w (n, k). -/
theorem prod1_apply (x : FVec Ideal S1024x2048 .bf16) (w : FVec Ideal S2048x2048 .bf16) (p : Fin 1024) (n : Fin 2048) :
    FloatOps.matmul dot_S1024x2048_S2048x2048_S1024x2048_1_1_0_0_n_n none x w (constant (F := Ideal) S1024x2048 .f32 0x00000000#32) (ix2 p n)
      = ∑ k : Fin 2048, x (ix2 p k) * w (ix2 n k) := by
  rw [Ideal.matmul_constant_zero_apply, ← Equiv.sum_comp (ValueIdx.contrEquiv1 dot_S1024x2048_S2048x2048_S1024x2048_1_1_0_0_n_n 2048 rfl rfl).symm]
  refine Finset.sum_congr rfl fun k _ => ?_
  have hk := ValueIdx.contrEquiv1_symm_val dot_S1024x2048_S2048x2048_S1024x2048_1_1_0_0_n_n 2048 rfl rfl k
  have el : dot_S1024x2048_S2048x2048_S1024x2048_1_1_0_0_n_n.lhsIdx (ix2 p n) ((ValueIdx.contrEquiv1 dot_S1024x2048_S2048x2048_S1024x2048_1_1_0_0_n_n 2048 rfl rfl).symm k) = ix2 p k := funext fun a => Fin.ext (by
    match a with
    | ⟨0, _⟩ => exact lhs1_0 _ _
    | ⟨1, _⟩ => exact (lhs1_1 _ _).trans hk)
  have er : dot_S1024x2048_S2048x2048_S1024x2048_1_1_0_0_n_n.rhsIdx (ix2 p n) ((ValueIdx.contrEquiv1 dot_S1024x2048_S2048x2048_S1024x2048_1_1_0_0_n_n 2048 rfl rfl).symm k) = ix2 n k := funext fun a => Fin.ext (by
    match a with
    | ⟨0, _⟩ => exact rhs1_0 _ _
    | ⟨1, _⟩ => exact (rhs1_1 _ _).trans hk)
  rw [el, er]

/-- The body's stored tile at (p, n), from its two loaded tiles. -/
theorem pay1_apply (x : Vec Ideal S1024x2048 .bf16) (w : Vec Ideal S2048x2048 .bf16) (p : Fin 1024) (n : Fin 2048) :
    k1_pay1 (F := Ideal) x w (ix2 p n) = max ((∑ k : Fin 2048, x (ix2 p k) * w (ix2 n k)) * sHidden) floor0 := by
  unfold k1_pay1
  show max (FloatOps.matmul dot_S1024x2048_S2048x2048_S1024x2048_1_1_0_0_n_n none (shapeCast S1024x2048 x _) (shapeCast S2048x2048 w _) (constant (F := Ideal) S1024x2048 .f32 0x00000000#32) (ix2 p n) * sHidden) floor0 = _
  rw [shapeCast_self, shapeCast_self, prod1_apply]

/-- A stored tile against the whole layer, for any body function `f` that is this one (regions 2 and 3 print the same
    function under their own names): when the loaded tile `x` holds the rows of `X` from `o` on and the loaded weights are
    `W`, the tile at `j` is the layer of `X` and `W` at the array index `i` that `j` lands on. -/
theorem tileH (f : Vec Ideal S1024x2048 .bf16 → Vec Ideal S2048x2048 .bf16 → FVec Ideal S1024x2048 .bf16)
    (hf : f = k1_pay1 (F := Ideal))
    (X : S8192x2048.Idx → EReal) (W : S2048x2048.Idx → EReal)
    (x : Vec Ideal S1024x2048 .bf16) (w : Vec Ideal S2048x2048 .bf16) (o : Nat)
    (hx : ∀ (p : Fin 1024) (k : Fin 2048) (r : Fin 8192), r.val = o + p.val → x (ix2 p k) = X (ix2 r k))
    (hw : ∀ (n : Fin 2048) (k : Fin 2048), w (ix2 n k) = W (ix2 n k))
    (j : S1024x2048.Idx) (i : S8192x2048.Idx) (h0 : (i 0).val = o + (j 0).val) (h1 : (i 1).val = (j 1).val) :
    f x w j = hidden (M := 8192) (K := 2048) (N := 2048) sHidden floor0 X W i := by
  subst hf
  obtain ⟨p, n, rfl⟩ : ∃ (p : Fin 1024) (n : Fin 2048), j = ix2 p n := ⟨j 0, j 1, eq_ix2 j⟩
  obtain ⟨r, n', rfl⟩ : ∃ (r : Fin 8192) (n' : Fin 2048), i = ix2 r n' := ⟨i 0, i 1, eq_ix2 i⟩
  have hn : n' = n := Fin.ext h1
  subst hn
  rw [pay1_apply]
  exact hidden_rows sHidden floor0 X W x w p n' r (fun k => hx p k r h0) (fun k => hw n' k)

end Cert.KernelIdeal.Tiles

end
-- ==== Proof.Region1.lean ====
/-
  Region 1 (the second hidden layer's kernel) read as a value. At a grid point t the kernel loads rows 1024·t … 1024·t + 1023
  of the activations the region before left and the whole weight matrix, and stores the tile of the hidden layer of those
  rows (`tileH`). The eight tiles partition the rows, so after the region its result array is the hidden layer of the
  arrays the region found.
-/
import proofs.«153317_j13855564497555_1_alg».proof.Proof.Gen.KernelIdeal.Frame
import proofs.«153317_j13855564497555_1_alg».proof.Proof.Layers
import proofs.«153317_j13855564497555_1_alg».proof.Proof.Tile0
import proofs.«153317_j13855564497555_1_alg».proof.Proof.Tile1
import Idealize.ShloMosaic.Lib.Pipeline.Value
import Idealize.ShloMosaic.Lib.ValueIdx

set_option maxRecDepth 16384

noncomputable section

namespace Cert.KernelIdeal.Tiles

open Cert.KernelIdeal Cert.KernelIdeal.Gen Cert.Mlp
open Idealize.ShloMosaic Idealize.ShloMosaic.TcCoe Idealize.ShloMosaic.ValueIdx Idealize.SL.Sem
open Idealize.ShloMosaic.Pipeline (Dat Cfg Window)

/-! ## The windows' blocks on the grid -/

theorem idx1_0 : ∀ t : Fin cfg1.N, win1_0.index t (0 : Fin 2) = t.val ∧ win1_0.index t (1 : Fin 2) = 0 :=
  (by decide +kernel : ∀ t : Fin grid1.N, win1_0.index t (0 : Fin 2) = t.val ∧ win1_0.index t (1 : Fin 2) = 0)
theorem idx1_1 : ∀ t : Fin cfg1.N, win1_1.index t (0 : Fin 2) = 0 ∧ win1_1.index t (1 : Fin 2) = 0 :=
  (by decide +kernel : ∀ t : Fin grid1.N, win1_1.index t (0 : Fin 2) = 0 ∧ win1_1.index t (1 : Fin 2) = 0)
theorem idx1_2 : ∀ t : Fin cfg1.N, win1_2.index t (0 : Fin 2) = t.val ∧ win1_2.index t (1 : Fin 2) = 0 :=
  (by decide +kernel : ∀ t : Fin grid1.N, win1_2.index t (0 : Fin 2) = t.val ∧ win1_2.index t (1 : Fin 2) = 0)

section
variable (V : (c : Dev nD) → (b : Ref sig .tc) → Buf (Elt Ideal) ((c : Thread nD τ).loc b))

/-- What point `t` writes back is tile `t` of the hidden layer of the arrays the region found. -/
theorem flushed1 (c : Dev nD) (t : Fin cfg1.N) :
    (dat1 (F := Ideal) V c).flushed 2 t
      = ((cfg1.win 2).blk t).view.read (Elt Ideal) (hidden (M := 8192) (K := 2048) (N := 2048) sHidden floor0 (V c main_v6) (V c main_v2)) := by
  show (cfg1.win 2).cut (grid1.coords t) ((dat1 V c).after 2 t) = _
  rw [after1_2]
  unfold out1_2
  rw [View.canon_unit_zero hz]
  simp only [View.ld_unit_zero (S := S1024x2048) hz, View.ld_unit_zero (S := S2048x2048) hz]
  obtain ⟨a00, a01⟩ := idx1_0 t
  obtain ⟨a10, a11⟩ := idx1_1 t
  obtain ⟨a20, a21⟩ := idx1_2 t
  have hx : ∀ (p : Fin 1024) (k : Fin 2048) (r : Fin 8192), r.val = t.val * 1024 + p.val → iblk1 V c 0 t (ix2 p k) = V c main_v6 (ix2 r k) := fun p k r hr => by
    show V c main_v6 (((cfg1.win 0).blk t).view.emb (ix2 p k)) = V c main_v6 (ix2 r k)
    refine congrArg (V c main_v6) (funext fun a => Fin.ext ?_)
    match a with
    | ⟨0, _⟩ => show win1_0.index t (0 : Fin 2) * 1024 + 1 * p.val = r.val; omega
    | ⟨1, _⟩ => show win1_0.index t (1 : Fin 2) * 2048 + 1 * k.val = k.val; omega
  have hw : ∀ (n : Fin 2048) (k : Fin 2048), iblk1 V c 1 t (ix2 n k) = V c main_v2 (ix2 n k) := fun n k => by
    show V c main_v2 (((cfg1.win 1).blk t).view.emb (ix2 n k)) = V c main_v2 (ix2 n k)
    refine congrArg (V c main_v2) (funext fun a => Fin.ext ?_)
    match a with
    | ⟨0, _⟩ => show win1_1.index t (0 : Fin 2) * 2048 + 1 * n.val = n.val; omega
    | ⟨1, _⟩ => show win1_1.index t (1 : Fin 2) * 2048 + 1 * k.val = k.val; omega
  funext j
  show k1_pay1 (F := Ideal) (iblk1 V c 0 t) (iblk1 V c 1 t) j
    = hidden (M := 8192) (K := 2048) (N := 2048) sHidden floor0 (V c main_v6) (V c main_v2) (((cfg1.win 2).blk t).view.emb j)
  refine tileH (k1_pay1 (F := Ideal)) rfl (V c main_v6) (V c main_v2) (iblk1 V c 0 t) (iblk1 V c 1 t) (t.val * 1024) hx hw j (((cfg1.win 2).blk t).view.emb j) ?_ ?_
  · show win1_2.index t (0 : Fin 2) * 1024 + 1 * (j 0).val = t.val * 1024 + (j 0).val; omega
  · show win1_2.index t (1 : Fin 2) * 2048 + 1 * (j 1).val = (j 1).val; omega

/-- An index of the result array is in point `t`'s tile iff each coordinate is in the tile's range on its axis. -/
theorem mem_blk1 (t : Fin cfg1.N) (i : S8192x2048.Idx) :
    i ∈ ((cfg1.win 2).blk t).view.set ↔ ∀ a : Fin 2, win1_2.index t a * S1024x2048.size a ≤ (i a).val ∧ (i a).val < win1_2.index t a * S1024x2048.size a + S1024x2048.size a := by
  show i ∈ ((View.whole main_v7).slice (win1_2.rect t)).set ↔ _
  rw [View.set_slice_whole, Rect.mem_set_unit]
  exact Iff.rfl

/-- Every index of the result array is in the tile of the point its row falls to. -/
theorem cover1 (i : S8192x2048.Idx) : ∃ t : Fin cfg1.N, (cfg1.win 2).flush t = true ∧ i ∈ ((cfg1.win 2).blk t).view.set := by
  have hi0 : (i 0).val < 8192 := (i 0).isLt
  have hi1 : (i 1).val < 2048 := (i 1).isLt
  have hN : cfg1.N = 8 := rfl
  obtain ⟨t, ht⟩ : ∃ t : Fin cfg1.N, t.val = (i 0).val / 1024 := ⟨⟨(i 0).val / 1024, by omega⟩, rfl⟩
  obtain ⟨a20, a21⟩ := idx1_2 t
  refine ⟨t, flush1_2 t, ?_⟩
  rw [mem_blk1]
  intro a
  match a with
  | ⟨0, _⟩ => show win1_2.index t (0 : Fin 2) * 1024 ≤ (i 0).val ∧ (i 0).val < win1_2.index t (0 : Fin 2) * 1024 + 1024; omega
  | ⟨1, _⟩ => show win1_2.index t (1 : Fin 2) * 2048 ≤ (i 1).val ∧ (i 1).val < win1_2.index t (1 : Fin 2) * 2048 + 2048; omega

/-- After the region its result array is the hidden layer of the arrays it found. -/
theorem final1 (c : Dev nD) :
    (dat1 (F := Ideal) V c).arrAt 2 cfg1.N = hidden (M := 8192) (K := 2048) (N := 2048) sHidden floor0 (V c main_v6) (V c main_v2) :=
  (dat1 (F := Ideal) V c).arrAt_eq_of_cover 2 _ (fun t _ => flushed1 V c t) cover1

end

end Cert.KernelIdeal.Tiles

end
-- ==== Proof.Region2.lean ====
/- Region 2 (the third hidden layer's kernel) read as a value: the same statement and proof as region 1's, at this region's
   windows and arrays. -/
import proofs.«153317_j13855564497555_1_alg».proof.Proof.Gen.KernelIdeal.Frame
import proofs.«153317_j13855564497555_1_alg».proof.Proof.Layers
import proofs.«153317_j13855564497555_1_alg».proof.Proof.Tile0
import proofs.«153317_j13855564497555_1_alg».proof.Proof.Tile1
import Idealize.ShloMosaic.Lib.Pipeline.Value
import Idealize.ShloMosaic.Lib.ValueIdx

set_option maxRecDepth 16384

noncomputable section

namespace Cert.KernelIdeal.Tiles

open Cert.KernelIdeal Cert.KernelIdeal.Gen Cert.Mlp
open Idealize.ShloMosaic Idealize.ShloMosaic.TcCoe Idealize.ShloMosaic.ValueIdx Idealize.SL.Sem
open Idealize.ShloMosaic.Pipeline (Dat Cfg Window)

/-! ## The windows' blocks on the grid -/

theorem idx2_0 : ∀ t : Fin cfg2.N, win2_0.index t (0 : Fin 2) = t.val ∧ win2_0.index t (1 : Fin 2) = 0 :=
  (by decide +kernel : ∀ t : Fin grid2.N, win2_0.index t (0 : Fin 2) = t.val ∧ win2_0.index t (1 : Fin 2) = 0)
theorem idx2_1 : ∀ t : Fin cfg2.N, win2_1.index t (0 : Fin 2) = 0 ∧ win2_1.index t (1 : Fin 2) = 0 :=
  (by decide +kernel : ∀ t : Fin grid2.N, win2_1.index t (0 : Fin 2) = 0 ∧ win2_1.index t (1 : Fin 2) = 0)
theorem idx2_2 : ∀ t : Fin cfg2.N, win2_2.index t (0 : Fin 2) = t.val ∧ win2_2.index t (1 : Fin 2) = 0 :=
  (by decide +kernel : ∀ t : Fin grid2.N, win2_2.index t (0 : Fin 2) = t.val ∧ win2_2.index t (1 : Fin 2) = 0)

section
variable (V : (c : Dev nD) → (b : Ref sig .tc) → Buf (Elt Ideal) ((c : Thread nD τ).loc b))

/-- What point `t` writes back is tile `t` of the hidden layer of the arrays the region found. -/
theorem flushed2 (c : Dev nD) (t : Fin cfg2.N) :
    (dat2 (F := Ideal) V c).flushed 2 t
      = ((cfg2.win 2).blk t).view.read (Elt Ideal) (hidden (M := 8192) (K := 2048) (N := 2048) sHidden floor0 (V c main_v7) (V c main_v3)) := by
  show (cfg2.win 2).cut (grid2.coords t) ((dat2 V c).after 2 t) = _
  rw [after2_2]
  unfold out2_2
  rw [View.canon_unit_zero hz]
  simp only [View.ld_unit_zero (S := S1024x2048) hz, View.ld_unit_zero (S := S2048x2048) hz]
  obtain ⟨a00, a01⟩ := idx2_0 t
  obtain ⟨a10, a11⟩ := idx2_1 t
  obtain ⟨a20, a21⟩ := idx2_2 t
  have hx : ∀ (p : Fin 1024) (k : Fin 2048) (r : Fin 8192), r.val = t.val * 1024 + p.val → iblk2 V c 0 t (ix2 p k) = V c main_v7 (ix2 r k) := fun p k r hr => by
    show V c main_v7 (((cfg2.win 0).blk t).view.emb (ix2 p k)) = V c main_v7 (ix2 r k)
    refine congrArg (V c main_v7) (funext fun a => Fin.ext ?_)
    match a with
    | ⟨0, _⟩ => show win2_0.index t (0 : Fin 2) * 1024 + 1 * p.val = r.val; omega
    | ⟨1, _⟩ => show win2_0.index t (1 : Fin 2) * 2048 + 1 * k.val = k.val; omega
  have hw : ∀ (n : Fin 2048) (k : Fin 2048), iblk2 V c 1 t (ix2 n k) = V c main_v3 (ix2 n k) := fun n k => by
    show V c main_v3 (((cfg2.win 1).blk t).view.emb (ix2 n k)) = V c main_v3 (ix2 n k)
    refine congrArg (V c main_v3) (funext fun a => Fin.ext ?_)
    match a with
    | ⟨0, _⟩ => show win2_1.index t (0 : Fin 2) * 2048 + 1 * n.val = n.val; omega
    | ⟨1, _⟩ => show win2_1.index t (1 : Fin 2) * 2048 + 1 * k.val = k.val; omega
  funext j
  show k2_pay1 (F := Ideal) (iblk2 V c 0 t) (iblk2 V c 1 t) j
    = hidden (M := 8192) (K := 2048) (N := 2048) sHidden floor0 (V c main_v7) (V c main_v3) (((cfg2.win 2).blk t).view.emb j)
  refine tileH (k2_pay1 (F := Ideal)) rfl (V c main_v7) (V c main_v3) (iblk2 V c 0 t) (iblk2 V c 1 t) (t.val * 1024) hx hw j (((cfg2.win 2).blk t).view.emb j) ?_ ?_
  · show win2_2.index t (0 : Fin 2) * 1024 + 1 * (j 0).val = t.val * 1024 + (j 0).val; omega
  · show win2_2.index t (1 : Fin 2) * 2048 + 1 * (j 1).val = (j 1).val; omega

/-- An index of the result array is in point `t`'s tile iff each coordinate is in the tile's range on its axis. -/
theorem mem_blk2 (t : Fin cfg2.N) (i : S8192x2048.Idx) :
    i ∈ ((cfg2.win 2).blk t).view.set ↔ ∀ a : Fin 2, win2_2.index t a * S1024x2048.size a ≤ (i a).val ∧ (i a).val < win2_2.index t a * S1024x2048.size a + S1024x2048.size a := by
  show i ∈ ((View.whole main_v8).slice (win2_2.rect t)).set ↔ _
  rw [View.set_slice_whole, Rect.mem_set_unit]
  exact Iff.rfl

/-- Every index of the result array is in the tile of the point its row falls to. -/
theorem cover2 (i : S8192x2048.Idx) : ∃ t : Fin cfg2.N, (cfg2.win 2).flush t = true ∧ i ∈ ((cfg2.win 2).blk t).view.set := by
  have hi0 : (i 0).val < 8192 := (i 0).isLt
  have hi1 : (i 1).val < 2048 := (i 1).isLt
  have hN : cfg2.N = 8 := rfl
  obtain ⟨t, ht⟩ : ∃ t : Fin cfg2.N, t.val = (i 0).val / 1024 := ⟨⟨(i 0).val / 1024, by omega⟩, rfl⟩
  obtain ⟨a20, a21⟩ := idx2_2 t
  refine ⟨t, flush2_2 t, ?_⟩
  rw [mem_blk2]
  intro a
  match a with
  | ⟨0, _⟩ => show win2_2.index t (0 : Fin 2) * 1024 ≤ (i 0).val ∧ (i 0).val < win2_2.index t (0 : Fin 2) * 1024 + 1024; omega
  | ⟨1, _⟩ => show win2_2.index t (1 : Fin 2) * 2048 ≤ (i 1).val ∧ (i 1).val < win2_2.index t (1 : Fin 2) * 2048 + 2048; omega

/-- After the region its result array is the hidden layer of the arrays it found. -/
theorem final2 (c : Dev nD) :
    (dat2 (F := Ideal) V c).arrAt 2 cfg2.N = hidden (M := 8192) (K := 2048) (N := 2048) sHidden floor0 (V c main_v7) (V c main_v3) :=
  (dat2 (F := Ideal) V c).arrAt_eq_of_cover 2 _ (fun t _ => flushed2 V c t) cover2

end

end Cert.KernelIdeal.Tiles

end
-- ==== Proof.Region3.lean ====
/- Region 3 (the fourth hidden layer's kernel) read as a value: the same statement and proof as region 1's, at this region's
   windows and arrays. -/
import proofs.«153317_j13855564497555_1_alg».proof.Proof.Gen.KernelIdeal.Frame
import proofs.«153317_j13855564497555_1_alg».proof.Proof.Layers
import proofs.«153317_j13855564497555_1_alg».proof.Proof.Tile0
import proofs.«153317_j13855564497555_1_alg».proof.Proof.Tile1
import Idealize.ShloMosaic.Lib.Pipeline.Value
import Idealize.ShloMosaic.Lib.ValueIdx

set_option maxRecDepth 16384

noncomputable section

namespace Cert.KernelIdeal.Tiles

open Cert.KernelIdeal Cert.KernelIdeal.Gen Cert.Mlp
open Idealize.ShloMosaic Idealize.ShloMosaic.TcCoe Idealize.ShloMosaic.ValueIdx Idealize.SL.Sem
open Idealize.ShloMosaic.Pipeline (Dat Cfg Window)

/-! ## The windows' blocks on the grid -/

theorem idx3_0 : ∀ t : Fin cfg3.N, win3_0.index t (0 : Fin 2) = t.val ∧ win3_0.index t (1 : Fin 2) = 0 :=
  (by decide +kernel : ∀ t : Fin grid3.N, win3_0.index t (0 : Fin 2) = t.val ∧ win3_0.index t (1 : Fin 2) = 0)
theorem idx3_1 : ∀ t : Fin cfg3.N, win3_1.index t (0 : Fin 2) = 0 ∧ win3_1.index t (1 : Fin 2) = 0 :=
  (by decide +kernel : ∀ t : Fin grid3.N, win3_1.index t (0 : Fin 2) = 0 ∧ win3_1.index t (1 : Fin 2) = 0)
theorem idx3_2 : ∀ t : Fin cfg3.N, win3_2.index t (0 : Fin 2) = t.val ∧ win3_2.index t (1 : Fin 2) = 0 :=
  (by decide +kernel : ∀ t : Fin grid3.N, win3_2.index t (0 : Fin 2) = t.val ∧ win3_2.index t (1 : Fin 2) = 0)

section
variable (V : (c : Dev nD) → (b : Ref sig .tc) → Buf (Elt Ideal) ((c : Thread nD τ).loc b))

/-- What point `t` writes back is tile `t` of the hidden layer of the arrays the region found. -/
theorem flushed3 (c : Dev nD) (t : Fin cfg3.N) :
    (dat3 (F := Ideal) V c).flushed 2 t
      = ((cfg3.win 2).blk t).view.read (Elt Ideal) (hidden (M := 8192) (K := 2048) (N := 2048) sHidden floor0 (V c main_v8) (V c main_v4)) := by
  show (cfg3.win 2).cut (grid3.coords t) ((dat3 V c).after 2 t) = _
  rw [after3_2]
  unfold out3_2
  rw [View.canon_unit_zero hz]
  simp only [View.ld_unit_zero (S := S1024x2048) hz, View.ld_unit_zero (S := S2048x2048) hz]
  obtain ⟨a00, a01⟩ := idx3_0 t
  obtain ⟨a10, a11⟩ := idx3_1 t
  obtain ⟨a20, a21⟩ := idx3_2 t
  have hx : ∀ (p : Fin 1024) (k : Fin 2048) (r : Fin 8192), r.val = t.val * 1024 + p.val → iblk3 V c 0 t (ix2 p k) = V c main_v8 (ix2 r k) := fun p k r hr => by
    show V c main_v8 (((cfg3.win 0).blk t).view.emb (ix2 p k)) = V c main_v8 (ix2 r k)
    refine congrArg (V c main_v8) (funext fun a => Fin.ext ?_)
    match a with
    | ⟨0, _⟩ => show win3_0.index t (0 : Fin 2) * 1024 + 1 * p.val = r.val; omega
    | ⟨1, _⟩ => show win3_0.index t (1 : Fin 2) * 2048 + 1 * k.val = k.val; omega
  have hw : ∀ (n : Fin 2048) (k : Fin 2048), iblk3 V c 1 t (ix2 n k) = V c main_v4 (ix2 n k) := fun n k => by
    show V c main_v4 (((cfg3.win 1).blk t).view.emb (ix2 n k)) = V c main_v4 (ix2 n k)
    refine congrArg (V c main_v4) (funext fun a => Fin.ext ?_)
    match a with
    | ⟨0, _⟩ => show win3_1.index t (0 : Fin 2) * 2048 + 1 * n.val = n.val; omega
    | ⟨1, _⟩ => show win3_1.index t (1 : Fin 2) * 2048 + 1 * k.val = k.val; omega
  funext j
  show k3_pay1 (F := Ideal) (iblk3 V c 0 t) (iblk3 V c 1 t) j
    = hidden (M := 8192) (K := 2048) (N := 2048) sHidden floor0 (V c main_v8) (V c main_v4) (((cfg3.win 2).blk t).view.emb j)
  refine tileH (k3_pay1 (F := Ideal)) rfl (V c main_v8) (V c main_v4) (iblk3 V c 0 t) (iblk3 V c 1 t) (t.val * 1024) hx hw j (((cfg3.win 2).blk t).view.emb j) ?_ ?_
  · show win3_2.index t (0 : Fin 2) * 1024 + 1 * (j 0).val = t.val * 1024 + (j 0).val; omega
  · show win3_2.index t (1 : Fin 2) * 2048 + 1 * (j 1).val = (j 1).val; omega

/-- An index of the result array is in point `t`'s tile iff each coordinate is in the tile's range on its axis. -/
theorem mem_blk3 (t : Fin cfg3.N) (i : S8192x2048.Idx) :
    i ∈ ((cfg3.win 2).blk t).view.set ↔ ∀ a : Fin 2, win3_2.index t a * S1024x2048.size a ≤ (i a).val ∧ (i a).val < win3_2.index t a * S1024x2048.size a + S1024x2048.size a := by
  show i ∈ ((View.whole main_v9).slice (win3_2.rect t)).set ↔ _
  rw [View.set_slice_whole, Rect.mem_set_unit]
  exact Iff.rfl

/-- Every index of the result array is in the tile of the point its row falls to. -/
theorem cover3 (i : S8192x2048.Idx) : ∃ t : Fin cfg3.N, (cfg3.win 2).flush t = true ∧ i ∈ ((cfg3.win 2).blk t).view.set := by
  have hi0 : (i 0).val < 8192 := (i 0).isLt
  have hi1 : (i 1).val < 2048 := (i 1).isLt
  have hN : cfg3.N = 8 := rfl
  obtain ⟨t, ht⟩ : ∃ t : Fin cfg3.N, t.val = (i 0).val / 1024 := ⟨⟨(i 0).val / 1024, by omega⟩, rfl⟩
  obtain ⟨a20, a21⟩ := idx3_2 t
  refine ⟨t, flush3_2 t, ?_⟩
  rw [mem_blk3]
  intro a
  match a with
  | ⟨0, _⟩ => show win3_2.index t (0 : Fin 2) * 1024 ≤ (i 0).val ∧ (i 0).val < win3_2.index t (0 : Fin 2) * 1024 + 1024; omega
  | ⟨1, _⟩ => show win3_2.index t (1 : Fin 2) * 2048 ≤ (i 1).val ∧ (i 1).val < win3_2.index t (1 : Fin 2) * 2048 + 2048; omega

/-- After the region its result array is the hidden layer of the arrays it found. -/
theorem final3 (c : Dev nD) :
    (dat3 (F := Ideal) V c).arrAt 2 cfg3.N = hidden (M := 8192) (K := 2048) (N := 2048) sHidden floor0 (V c main_v8) (V c main_v4) :=
  (dat3 (F := Ideal) V c).arrAt_eq_of_cover 2 _ (fun t _ => flushed3 V c t) cover3

end

end Cert.KernelIdeal.Tiles

end
-- ==== Proof.Tile4.lean ====
/-
  Region 4 (the readout's kernel) read as a value. At a grid point t the kernel loads rows 1024·t … 1024·t + 1023 of the
  last hidden layer's activations and the whole [2048, 128] readout matrix (stored input-major, so the product contracts
  the tile's second axis with the matrix's first), multiplies into a zero accumulator and scales by 2^(-11); at the
  extended reals the accumulated product is the plain sum over the contracted axis, so the stored tile is the readout of
  those rows (`Mlp.readout_rows`). The eight tiles partition the rows: after the region the result array is the readout of
  the arrays the region found.
-/
import proofs.«153317_j13855564497555_1_alg».proof.Proof.Gen.KernelIdeal.Frame
import proofs.«153317_j13855564497555_1_alg».proof.Proof.Layers
import proofs.«153317_j13855564497555_1_alg».proof.Proof.Tile0
import Idealize.ShloMosaic.Lib.Pipeline.Value
import Idealize.ShloMosaic.Lib.ValueIdx
import Idealize.ShloMosaic.PureOps.Ideal.Laws

set_option maxRecDepth 16384

noncomputable section

namespace Cert.KernelIdeal.Tiles

open Cert.KernelIdeal Cert.KernelIdeal.Gen Cert.Mlp
open Idealize.ShloMosaic Idealize.ShloMosaic.TcCoe Idealize.ShloMosaic.ValueIdx Idealize.SL.Sem
open Idealize.ShloMosaic.Pipeline (Dat Cfg Window)

/-! ## The product's operand indices: tile [1024, 2048] on its second axis against the matrix [2048, 128] on its first -/

theorem lhs4_0 (i : S1024x128.Idx) (q : dot_S1024x2048_S2048x128_S1024x128_1_0_0_1_n_n.contr.Idx) :
    (dot_S1024x2048_S2048x128_S1024x128_1_0_0_1_n_n.lhsIdx i q 0).val = (i 0).val := by
  unfold DotDims.lhsIdx
  rw [dif_neg (show ¬(0 : Fin S1024x2048.rank) ∈ dot_S1024x2048_S2048x128_S1024x128_1_0_0_1_n_n.lhsBatch by decide), dif_pos (show (0 : Fin S1024x2048.rank) ∈ dot_S1024x2048_S2048x128_S1024x128_1_0_0_1_n_n.lhsNonContracting by decide)]
  rfl
theorem lhs4_1 (i : S1024x128.Idx) (q : dot_S1024x2048_S2048x128_S1024x128_1_0_0_1_n_n.contr.Idx) :
    (dot_S1024x2048_S2048x128_S1024x128_1_0_0_1_n_n.lhsIdx i q 1).val = (q ⟨0, by decide⟩).val :=
  dot_S1024x2048_S2048x128_S1024x128_1_0_0_1_n_n.lhsIdx_val_of_single rfl i q
theorem rhs4_0 (i : S1024x128.Idx) (q : dot_S1024x2048_S2048x128_S1024x128_1_0_0_1_n_n.contr.Idx) :
    (dot_S1024x2048_S2048x128_S1024x128_1_0_0_1_n_n.rhsIdx i q 0).val = (q ⟨0, by decide⟩).val :=
  dot_S1024x2048_S2048x128_S1024x128_1_0_0_1_n_n.rhsIdx_val_of_single rfl i q
theorem rhs4_1 (i : S1024x128.Idx) (q : dot_S1024x2048_S2048x128_S1024x128_1_0_0_1_n_n.contr.Idx) :
    (dot_S1024x2048_S2048x128_S1024x128_1_0_0_1_n_n.rhsIdx i q 1).val = (i 1).val := by
  unfold DotDims.rhsIdx
  rw [dif_neg (show ¬(1 : Fin S2048x128.rank) ∈ dot_S1024x2048_S2048x128_S1024x128_1_0_0_1_n_n.rhsBatch by decide), dif_pos (show (1 : Fin S2048x128.rank) ∈ dot_S1024x2048_S2048x128_S1024x128_1_0_0_1_n_n.rhsNonContracting by decide)]
  rfl

/-- The tile's product into the zero accumulator, at (p, n): the sum over k of x (p, k) · b (k, n). -/
theorem prod4_apply (x : FVec Ideal S1024x2048 .bf16) (b : FVec Ideal S2048x128 .bf16) (p : Fin 1024) (n : Fin 128) :
    FloatOps.matmul dot_S1024x2048_S2048x128_S1024x128_1_0_0_1_n_n none x b (constant (F := Ideal) S1024x128 .f32 0x00000000#32) (ix2 p n)
      = ∑ k : Fin 2048, x (ix2 p k) * b (ix2 k n) := by
  rw [Ideal.matmul_constant_zero_apply, ← Equiv.sum_comp (ValueIdx.contrEquiv1 dot_S1024x2048_S2048x128_S1024x128_1_0_0_1_n_n 2048 rfl rfl).symm]
  refine Finset.sum_congr rfl fun k _ => ?_
  have hk := ValueIdx.contrEquiv1_symm_val dot_S1024x2048_S2048x128_S1024x128_1_0_0_1_n_n 2048 rfl rfl k
  have el : dot_S1024x2048_S2048x128_S1024x128_1_0_0_1_n_n.lhsIdx (ix2 p n) ((ValueIdx.contrEquiv1 dot_S1024x2048_S2048x128_S1024x128_1_0_0_1_n_n 2048 rfl rfl).symm k) = ix2 p k := funext fun a => Fin.ext (by
    match a with
    | ⟨0, _⟩ => exact lhs4_0 _ _
    | ⟨1, _⟩ => exact (lhs4_1 _ _).trans hk)
  have er : dot_S1024x2048_S2048x128_S1024x128_1_0_0_1_n_n.rhsIdx (ix2 p n) ((ValueIdx.contrEquiv1 dot_S1024x2048_S2048x128_S1024x128_1_0_0_1_n_n 2048 rfl rfl).symm k) = ix2 k n := funext fun a => Fin.ext (by
    match a with
    | ⟨0, _⟩ => exact (rhs4_0 _ _).trans hk
    | ⟨1, _⟩ => exact rhs4_1 _ _)
  rw [el, er]

/-- The body's stored tile at (p, n), from its two loaded tiles. -/
theorem pay4_apply (x : Vec Ideal S1024x2048 .bf16) (b : Vec Ideal S2048x128 .bf16) (p : Fin 1024) (n : Fin 128) :
    k4_pay1 (F := Ideal) x b (ix2 p n) = (∑ k : Fin 2048, x (ix2 p k) * b (ix2 k n)) * sOut := by
  unfold k4_pay1
  show FloatOps.matmul dot_S1024x2048_S2048x128_S1024x128_1_0_0_1_n_n none (shapeCast S1024x2048 x _) (shapeCast S2048x128 b _) (constant (F := Ideal) S1024x128 .f32 0x00000000#32) (ix2 p n) * sOut = _
  rw [shapeCast_self, shapeCast_self, prod4_apply]

/-- A stored tile against the whole readout: when the loaded tile `x` holds the rows of `X` from `o` on and the loaded
    matrix is `B`, the tile at `j` is the readout of `X` and `B` at the array index `i` that `j` lands on. -/
theorem tile4 (X : S8192x2048.Idx → EReal) (B : S2048x128.Idx → EReal)
    (x : Vec Ideal S1024x2048 .bf16) (b : Vec Ideal S2048x128 .bf16) (o : Nat)
    (hx : ∀ (p : Fin 1024) (k : Fin 2048) (r : Fin 8192), r.val = o + p.val → x (ix2 p k) = X (ix2 r k))
    (hb : ∀ (k : Fin 2048) (n : Fin 128), b (ix2 k n) = B (ix2 k n))
    (j : S1024x128.Idx) (i : S8192x128.Idx) (h0 : (i 0).val = o + (j 0).val) (h1 : (i 1).val = (j 1).val) :
    k4_pay1 (F := Ideal) x b j = readout (M := 8192) (K := 2048) (N := 128) sOut X B i := by
  obtain ⟨p, n, rfl⟩ : ∃ (p : Fin 1024) (n : Fin 128), j = ix2 p n := ⟨j 0, j 1, eq_ix2 j⟩
  obtain ⟨r, n', rfl⟩ : ∃ (r : Fin 8192) (n' : Fin 128), i = ix2 r n' := ⟨i 0, i 1, eq_ix2 i⟩
  have hn : n' = n := Fin.ext h1
  subst hn
  rw [pay4_apply]
  exact readout_rows sOut X B x b p n' r (fun k => hx p k r h0) (fun k => hb k n')

/-! ## The windows' blocks on the grid -/

theorem idx4_0 : ∀ t : Fin cfg4.N, win4_0.index t (0 : Fin 2) = t.val ∧ win4_0.index t (1 : Fin 2) = 0 :=
  (by decide +kernel : ∀ t : Fin grid4.N, win4_0.index t (0 : Fin 2) = t.val ∧ win4_0.index t (1 : Fin 2) = 0)
theorem idx4_1 : ∀ t : Fin cfg4.N, win4_1.index t (0 : Fin 2) = 0 ∧ win4_1.index t (1 : Fin 2) = 0 :=
  (by decide +kernel : ∀ t : Fin grid4.N, win4_1.index t (0 : Fin 2) = 0 ∧ win4_1.index t (1 : Fin 2) = 0)
theorem idx4_2 : ∀ t : Fin cfg4.N, win4_2.index t (0 : Fin 2) = t.val ∧ win4_2.index t (1 : Fin 2) = 0 :=
  (by decide +kernel : ∀ t : Fin grid4.N, win4_2.index t (0 : Fin 2) = t.val ∧ win4_2.index t (1 : Fin 2) = 0)

section
variable (V : (c : Dev nD) → (b : Ref sig .tc) → Buf (Elt Ideal) ((c : Thread nD τ).loc b))

/-- What point `t` writes back is tile `t` of the readout of the arrays the region found. -/
theorem flushed4 (c : Dev nD) (t : Fin cfg4.N) :
    (dat4 (F := Ideal) V c).flushed 2 t
      = ((cfg4.win 2).blk t).view.read (Elt Ideal) (readout (M := 8192) (K := 2048) (N := 128) sOut (V c main_v9) (V c main_v5)) := by
  show (cfg4.win 2).cut (grid4.coords t) ((dat4 V c).after 2 t) = _
  rw [after4_2]
  unfold out4_2
  rw [View.canon_unit_zero hz]
  simp only [View.ld_unit_zero (S := S1024x2048) hz, View.ld_unit_zero (S := S2048x128) hz]
  obtain ⟨a00, a01⟩ := idx4_0 t
  obtain ⟨a10, a11⟩ := idx4_1 t
  obtain ⟨a20, a21⟩ := idx4_2 t
  have hx : ∀ (p : Fin 1024) (k : Fin 2048) (r : Fin 8192), r.val = t.val * 1024 + p.val → iblk4 V c 0 t (ix2 p k) = V c main_v9 (ix2 r k) := fun p k r hr => by
    show V c main_v9 (((cfg4.win 0).blk t).view.emb (ix2 p k)) = V c main_v9 (ix2 r k)
    refine congrArg (V c main_v9) (funext fun a => Fin.ext ?_)
    match a with
    | ⟨0, _⟩ => show win4_0.index t (0 : Fin 2) * 1024 + 1 * p.val = r.val; omega
    | ⟨1, _⟩ => show win4_0.index t (1 : Fin 2) * 2048 + 1 * k.val = k.val; omega
  have hb : ∀ (k : Fin 2048) (n : Fin 128), iblk4 V c 1 t (ix2 k n) = V c main_v5 (ix2 k n) := fun k n => by
    show V c main_v5 (((cfg4.win 1).blk t).view.emb (ix2 k n)) = V c main_v5 (ix2 k n)
    refine congrArg (V c main_v5) (funext fun a => Fin.ext ?_)
    match a with
    | ⟨0, _⟩ => show win4_1.index t (0 : Fin 2) * 2048 + 1 * k.val = k.val; omega
    | ⟨1, _⟩ => show win4_1.index t (1 : Fin 2) * 128 + 1 * n.val = n.val; omega
  funext j
  show k4_pay1 (F := Ideal) (iblk4 V c 0 t) (iblk4 V c 1 t) j
    = readout (M := 8192) (K := 2048) (N := 128) sOut (V c main_v9) (V c main_v5) (((cfg4.win 2).blk t).view.emb j)
  refine tile4 (V c main_v9) (V c main_v5) (iblk4 V c 0 t) (iblk4 V c 1 t) (t.val * 1024) hx hb j (((cfg4.win 2).blk t).view.emb j) ?_ ?_
  · show win4_2.index t (0 : Fin 2) * 1024 + 1 * (j 0).val = t.val * 1024 + (j 0).val; omega
  · show win4_2.index t (1 : Fin 2) * 128 + 1 * (j 1).val = (j 1).val; omega

/-- An index of the result array is in point `t`'s tile iff each coordinate is in the tile's range on its axis. -/
theorem mem_blk4 (t : Fin cfg4.N) (i : S8192x128.Idx) :
    i ∈ ((cfg4.win 2).blk t).view.set ↔ ∀ a : Fin 2, win4_2.index t a * S1024x128.size a ≤ (i a).val ∧ (i a).val < win4_2.index t a * S1024x128.size a + S1024x128.size a := by
  show i ∈ ((View.whole main_v10).slice (win4_2.rect t)).set ↔ _
  rw [View.set_slice_whole, Rect.mem_set_unit]
  exact Iff.rfl

/-- Every index of the result array is in the tile of the point its row falls to. -/
theorem cover4 (i : S8192x128.Idx) : ∃ t : Fin cfg4.N, (cfg4.win 2).flush t = true ∧ i ∈ ((cfg4.win 2).blk t).view.set := by
  have hi0 : (i 0).val < 8192 := (i 0).isLt
  have hi1 : (i 1).val < 128 := (i 1).isLt
  have hN : cfg4.N = 8 := rfl
  obtain ⟨t, ht⟩ : ∃ t : Fin cfg4.N, t.val = (i 0).val / 1024 := ⟨⟨(i 0).val / 1024, by omega⟩, rfl⟩
  obtain ⟨a20, a21⟩ := idx4_2 t
  refine ⟨t, flush4_2 t, ?_⟩
  rw [mem_blk4]
  intro a
  match a with
  | ⟨0, _⟩ => show win4_2.index t (0 : Fin 2) * 1024 ≤ (i 0).val ∧ (i 0).val < win4_2.index t (0 : Fin 2) * 1024 + 1024; omega
  | ⟨1, _⟩ => show win4_2.index t (1 : Fin 2) * 128 ≤ (i 1).val ∧ (i 1).val < win4_2.index t (1 : Fin 2) * 128 + 128; omega

/-- After the region its result array is the readout of the arrays it found. -/
theorem final4 (c : Dev nD) :
    (dat4 (F := Ideal) V c).arrAt 2 cfg4.N = readout (M := 8192) (K := 2048) (N := 128) sOut (V c main_v9) (V c main_v5) :=
  (dat4 (F := Ideal) V c).arrAt_eq_of_cover 2 _ (fun t _ => flushed4 V c t) cover4

end

end Cert.KernelIdeal.Tiles

end
-- ==== Proof.Network.lean ====
/-
  The kernel program's result as a function of its arguments. Region by region: the host stretch before the regions
  only changes the arguments' float format, which at the extended reals is the identity, so each bf16 copy IS its
  argument; each region leaves in its result array the layer (`final0` … `final4`) of the arrays it found, and finds every
  other array as the segment before left it (a weight copy is written once, by the host stretch, and only read after).
  Composing the five: the result buffer ends at the network `Mlp.mlp` of the six arguments.
-/
import proofs.«153317_j13855564497555_1_alg».proof.Proof.KernelRun
import proofs.«153317_j13855564497555_1_alg».proof.Proof.Tile0
import proofs.«153317_j13855564497555_1_alg».proof.Proof.Region1
import proofs.«153317_j13855564497555_1_alg».proof.Proof.Region2
import proofs.«153317_j13855564497555_1_alg».proof.Proof.Region3
import proofs.«153317_j13855564497555_1_alg».proof.Proof.Tile4
import Idealize.ShloMosaic.Lib.StableHlo.Run

set_option maxRecDepth 16384

noncomputable section

namespace Cert.KernelIdeal.Tiles

open Cert.KernelIdeal Cert.KernelIdeal.Gen Cert.Mlp
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-! ## The host stretch: a change of float format is the identity -/

theorem cast0 (c : Dev nD) : (W1 m ρ c (Proc.devRef .tc main_v0) : S8192x1024.Idx → EReal) = m ((c : Thread nD τ).loc main_arg0) := by
  show StableHlo.after hostOps0 (W0 m ρ c) (Proc.devRef .tc main_v0) = _
  dsimp only [hostOps0]
  after_results
  rfl
theorem cast1 (c : Dev nD) : (W1 m ρ c (Proc.devRef .tc main_v1) : S2048x1024.Idx → EReal) = m ((c : Thread nD τ).loc main_arg1) := by
  show StableHlo.after hostOps0 (W0 m ρ c) (Proc.devRef .tc main_v1) = _
  dsimp only [hostOps0]
  after_results
  rfl
theorem cast2 (c : Dev nD) : (W1 m ρ c (Proc.devRef .tc main_v2) : S2048x2048.Idx → EReal) = m ((c : Thread nD τ).loc main_arg2) := by
  show StableHlo.after hostOps0 (W0 m ρ c) (Proc.devRef .tc main_v2) = _
  dsimp only [hostOps0]
  after_results
  rfl
theorem cast3 (c : Dev nD) : (W1 m ρ c (Proc.devRef .tc main_v3) : S2048x2048.Idx → EReal) = m ((c : Thread nD τ).loc main_arg3) := by
  show StableHlo.after hostOps0 (W0 m ρ c) (Proc.devRef .tc main_v3) = _
  dsimp only [hostOps0]
  after_results
  rfl
theorem cast4 (c : Dev nD) : (W1 m ρ c (Proc.devRef .tc main_v4) : S2048x2048.Idx → EReal) = m ((c : Thread nD τ).loc main_arg4) := by
  show StableHlo.after hostOps0 (W0 m ρ c) (Proc.devRef .tc main_v4) = _
  dsimp only [hostOps0]
  after_results
  rfl
theorem cast5 (c : Dev nD) : (W1 m ρ c (Proc.devRef .tc main_v5) : S2048x128.Idx → EReal) = m ((c : Thread nD τ).loc main_arg5) := by
  show StableHlo.after hostOps0 (W0 m ρ c) (Proc.devRef .tc main_v5) = _
  dsimp only [hostOps0]
  after_results
  rfl

/-! ## A weight copy is as the host stretch left it when its region reads it -/

theorem wt2 (c : Dev nD) : (W2 m ρ c (Proc.devRef .tc main_v2) : S2048x2048.Idx → EReal) = m ((c : Thread nD τ).loc main_arg2) :=
  (W2_of_ne m ρ c main_v2 (by decide)).trans (cast2 m ρ c)
theorem wt3 (c : Dev nD) : (W3 m ρ c (Proc.devRef .tc main_v3) : S2048x2048.Idx → EReal) = m ((c : Thread nD τ).loc main_arg3) :=
  (W3_of_ne m ρ c main_v3 (by decide)).trans ((W2_of_ne m ρ c main_v3 (by decide)).trans (cast3 m ρ c))
theorem wt4 (c : Dev nD) : (W4 m ρ c (Proc.devRef .tc main_v4) : S2048x2048.Idx → EReal) = m ((c : Thread nD τ).loc main_arg4) :=
  (W4_of_ne m ρ c main_v4 (by decide)).trans ((W3_of_ne m ρ c main_v4 (by decide)).trans
    ((W2_of_ne m ρ c main_v4 (by decide)).trans (cast4 m ρ c)))
theorem wt5 (c : Dev nD) : (W5 m ρ c (Proc.devRef .tc main_v5) : S2048x128.Idx → EReal) = m ((c : Thread nD τ).loc main_arg5) :=
  (W5_of_ne m ρ c main_v5 (by decide)).trans ((W4_of_ne m ρ c main_v5 (by decide)).trans
    ((W3_of_ne m ρ c main_v5 (by decide)).trans ((W2_of_ne m ρ c main_v5 (by decide)).trans (cast5 m ρ c))))

/-! ## The activations after each region -/

/-- After region 0: the first hidden layer of the input and the first weights. -/
theorem act1 (c : Dev nD) : (W2 m ρ c (Proc.devRef .tc main_v6) : S8192x2048.Idx → EReal)
    = hidden (M := 8192) (K := 1024) (N := 2048) sFirst floor0 (m ((c : Thread nD τ).loc main_arg0)) (m ((c : Thread nD τ).loc main_arg1)) :=
  ((W2_arr m ρ c 2).trans (final0 (V1 m ρ) c)).trans
    (congrArg₂ (hidden (M := 8192) (K := 1024) (N := 2048) sFirst floor0) (cast0 m ρ c) (cast1 m ρ c))

/-- After region 1. -/
theorem act2 (c : Dev nD) : (W3 m ρ c (Proc.devRef .tc main_v7) : S8192x2048.Idx → EReal)
    = hidden (M := 8192) (K := 2048) (N := 2048) sHidden floor0
        (hidden (M := 8192) (K := 1024) (N := 2048) sFirst floor0 (m ((c : Thread nD τ).loc main_arg0)) (m ((c : Thread nD τ).loc main_arg1)))
        (m ((c : Thread nD τ).loc main_arg2)) :=
  ((W3_arr m ρ c 2).trans (final1 (V2 m ρ) c)).trans
    (congrArg₂ (hidden (M := 8192) (K := 2048) (N := 2048) sHidden floor0) (act1 m ρ c) (wt2 m ρ c))

/-- After region 2. -/
theorem act3 (c : Dev nD) : (W4 m ρ c (Proc.devRef .tc main_v8) : S8192x2048.Idx → EReal)
    = hidden (M := 8192) (K := 2048) (N := 2048) sHidden floor0
        (hidden (M := 8192) (K := 2048) (N := 2048) sHidden floor0
          (hidden (M := 8192) (K := 1024) (N := 2048) sFirst floor0 (m ((c : Thread nD τ).loc main_arg0)) (m ((c : Thread nD τ).loc main_arg1)))
          (m ((c : Thread nD τ).loc main_arg2)))
        (m ((c : Thread nD τ).loc main_arg3)) :=
  ((W4_arr m ρ c 2).trans (final2 (V3 m ρ) c)).trans
    (congrArg₂ (hidden (M := 8192) (K := 2048) (N := 2048) sHidden floor0) (act2 m ρ c) (wt3 m ρ c))

/-- After region 3. -/
theorem act4 (c : Dev nD) : (W5 m ρ c (Proc.devRef .tc main_v9) : S8192x2048.Idx → EReal)
    = hidden (M := 8192) (K := 2048) (N := 2048) sHidden floor0
        (hidden (M := 8192) (K := 2048) (N := 2048) sHidden floor0
          (hidden (M := 8192) (K := 2048) (N := 2048) sHidden floor0
            (hidden (M := 8192) (K := 1024) (N := 2048) sFirst floor0 (m ((c : Thread nD τ).loc main_arg0)) (m ((c : Thread nD τ).loc main_arg1)))
            (m ((c : Thread nD τ).loc main_arg2)))
          (m ((c : Thread nD τ).loc main_arg3)))
        (m ((c : Thread nD τ).loc main_arg4)) :=
  ((W5_arr m ρ c 2).trans (final3 (V4 m ρ) c)).trans
    (congrArg₂ (hidden (M := 8192) (K := 2048) (N := 2048) sHidden floor0) (act3 m ρ c) (wt4 m ρ c))

/-- After the last region the result buffer holds the network of the six arguments. -/
theorem result (c : Dev nD) : (W6 m ρ c (Proc.devRef .tc main_v10) : S8192x128.Idx → EReal)
    = mlp (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) :=
  ((W6_arr m ρ c 2).trans (final4 (V5 m ρ) c)).trans
    (congrArg₂ (readout (M := 8192) (K := 2048) (N := 128) sOut) (act4 m ρ c) (wt5 m ρ c))

/-- The kernel program's run at the extended reals: it terminates with its result at the network of its arguments and
    its arguments as launched. -/
theorem kernel_run : θ_run (defs (F := Ideal)) (onTc (τ := τ) (main (F := Ideal))) ⟨m, fun _ => 0, ρ⟩ (fun r => ∀ c : Dev nD,
      r.2.mem ((c.tc : Thread nD τ).loc main_v10)
        = mlp (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result m ρ c), (h c).2⟩) (run_named (F := Ideal) m ρ)

end Cert.KernelIdeal.Tiles

end
-- ==== Proof.Dyadic.lean ====
/-
  The two float constants on which the readout's two spellings differ, as the extended reals their patterns denote:
  the reference divides by 2048 = 2^11, the kernel multiplies by 2^(-11). Both are exact binary values, and on the
  extended reals dividing by a nonzero real is multiplying by its reciprocal, at every argument, the infinities
  included — so the two spellings are one function and no finiteness is asked of the argument.
-/
import Idealize.ShloMosaic.PureOps.Ideal

noncomputable section

namespace Cert.Mlp

open Idealize.ShloMosaic

/-- The pattern of `2048.0` denotes the real 2048. -/
theorem ofBits_2048 : Ideal.ofBits .f32 0x45000000#32 = ((2048 : ℝ) : EReal) := by
  simp [Ideal.ofBits, Ideal.ieee, -EReal.coe_mul]; norm_num

/-- The pattern of `4.8828125e-4` denotes the real 1/2048 (sign 0, exponent field 116, no fraction bits: 2^(116-127)). -/
theorem ofBits_inv_2048 : Ideal.ofBits .f32 0x3A000000#32 = ((1 / 2048 : ℝ) : EReal) := by
  simp [Ideal.ofBits, Ideal.ieee, -EReal.coe_mul]; norm_num

/-- Dividing by 2048 is multiplying by 2^(-11), on every extended real. -/
theorem div_2048_eq_mul (x : EReal) :
    Ideal.div x (Ideal.ofBits .f32 0x45000000#32) = x * Ideal.ofBits .f32 0x3A000000#32 := by
  rw [ofBits_2048, ofBits_inv_2048, Ideal.div_coe (by norm_num : (2048 : ℝ) ≠ 0)]

end Cert.Mlp

end
-- ==== Proof.RefLayers.lean ====
/-
  The reference program read layer by layer. Each hidden layer of the reference is: transpose the weights, take the
  matrix product, multiply by the scale, clamp at zero through the outlined relu. Read at an index (the generated
  stage lemmas: a transpose swaps the two coordinates, a product is the sum over the contracted axis), a layer is
  `Mlp.hidden` of the previous activations and the untransposed weights, with the same scale word the kernel prints.
  The last stage divides the product with the readout weights by 2048, which on the extended reals is the product
  with 2^(-11) (`Mlp.div_2048_eq_mul`). So the reference's result is the network `Mlp.mlp` of its six arguments.
-/
import proofs.«153317_j13855564497555_1_alg».proof.Proof.Gen.ReferenceIdeal.Run
import proofs.«153317_j13855564497555_1_alg».proof.Proof.Gen.ReferenceIdeal.Read
import proofs.«153317_j13855564497555_1_alg».proof.Proof.Layers
import proofs.«153317_j13855564497555_1_alg».proof.Proof.Dyadic

noncomputable section

namespace Cert.ReferenceIdeal.RefValue

open Cert.ReferenceIdeal Cert.ReferenceIdeal.Gen Cert.ReferenceIdeal.Read Cert.Mlp
open Idealize.ShloMosaic Idealize.ShloMosaic.TcCoe Idealize.ShloMosaic.ValueIdx

/-- Layer 0 of the reference: the first hidden layer of the input and the first weights. -/
theorem layer0 (x0 : (⟨S8192x1024, .f32⟩ : BufTy).Contents (Elt Ideal)) (x1 : (⟨S2048x1024, .f32⟩ : BufTy).Contents (Elt Ideal)) :
    val_main_v4 (F := Ideal) x0 x1 = hidden (M := 8192) (K := 1024) (N := 2048) sFirst floor0 x0 x1 := by
  funext i
  obtain ⟨r, n, rfl⟩ : ∃ (r : Fin 8192) (n : Fin 2048), i = ix2 r n := ⟨i 0, i 1, eq_ix2 i⟩
  rw [hidden_apply, val_main_v4_apply, val_main_v3_apply, val_main_v1_apply, val_main_v2_apply, val_main_cst_apply,
    val_main_call0_v0_apply, val_main_call0_cst_apply]
  simp only [val_main_v0_apply, Ideal.mulf_def, Ideal.maximumf_def, Ideal.ofBits_def]
  refine congrArg (fun u => max (u * sFirst) floor0) (Finset.sum_congr rfl fun k _ => ?_)
  rw [show lidx_main_v1 (ix2 r n) k = ix2 r k from funext fun a => Fin.ext (by match a with | ⟨0, _⟩ => rfl | ⟨1, _⟩ => rfl),
    show idx_main_v0 (ridx_main_v1 (ix2 r n) k) = ix2 n k from funext fun a => Fin.ext (by match a with | ⟨0, _⟩ => rfl | ⟨1, _⟩ => rfl)]

/-- Layer 1 of the reference: transposed weights, product, scale, clamp — the hidden layer of the previous activations. -/
theorem layer1 (x0 : (⟨S8192x1024, .f32⟩ : BufTy).Contents (Elt Ideal)) (x1 : (⟨S2048x1024, .f32⟩ : BufTy).Contents (Elt Ideal)) (x2 : (⟨S2048x2048, .f32⟩ : BufTy).Contents (Elt Ideal)) :
    val_main_v9 (F := Ideal) x0 x1 x2 = hidden (M := 8192) (K := 2048) (N := 2048) sHidden floor0 (val_main_v4 (F := Ideal) x0 x1) x2 := by
  funext i
  obtain ⟨r, n, rfl⟩ : ∃ (r : Fin 8192) (n : Fin 2048), i = ix2 r n := ⟨i 0, i 1, eq_ix2 i⟩
  rw [hidden_apply, val_main_v9_apply, val_main_v8_apply, val_main_v6_apply, val_main_v7_apply, val_main_cst_0_apply,
    val_main_call1_v0_apply, val_main_call1_cst_apply]
  simp only [val_main_v5_apply, Ideal.mulf_def, Ideal.maximumf_def, Ideal.ofBits_def]
  refine congrArg (fun u => max (u * sHidden) floor0) (Finset.sum_congr rfl fun k _ => ?_)
  rw [show lidx_main_v6 (ix2 r n) k = ix2 r k from funext fun a => Fin.ext (by match a with | ⟨0, _⟩ => rfl | ⟨1, _⟩ => rfl),
    show idx_main_v5 (ridx_main_v6 (ix2 r n) k) = ix2 n k from funext fun a => Fin.ext (by match a with | ⟨0, _⟩ => rfl | ⟨1, _⟩ => rfl)]

/-- Layer 2 of the reference: transposed weights, product, scale, clamp — the hidden layer of the previous activations. -/
theorem layer2 (x0 : (⟨S8192x1024, .f32⟩ : BufTy).Contents (Elt Ideal)) (x1 : (⟨S2048x1024, .f32⟩ : BufTy).Contents (Elt Ideal)) (x2 x3 : (⟨S2048x2048, .f32⟩ : BufTy).Contents (Elt Ideal)) :
    val_main_v14 (F := Ideal) x0 x1 x2 x3 = hidden (M := 8192) (K := 2048) (N := 2048) sHidden floor0 (val_main_v9 (F := Ideal) x0 x1 x2) x3 := by
  funext i
  obtain ⟨r, n, rfl⟩ : ∃ (r : Fin 8192) (n : Fin 2048), i = ix2 r n := ⟨i 0, i 1, eq_ix2 i⟩
  rw [hidden_apply, val_main_v14_apply, val_main_v13_apply, val_main_v11_apply, val_main_v12_apply, val_main_cst_1_apply,
    val_main_call2_v0_apply, val_main_call2_cst_apply]
  simp only [val_main_v10_apply, Ideal.mulf_def, Ideal.maximumf_def, Ideal.ofBits_def]
  refine congrArg (fun u => max (u * sHidden) floor0) (Finset.sum_congr rfl fun k _ => ?_)
  rw [show lidx_main_v11 (ix2 r n) k = ix2 r k from funext fun a => Fin.ext (by match a with | ⟨0, _⟩ => rfl | ⟨1, _⟩ => rfl),
    show idx_main_v10 (ridx_main_v11 (ix2 r n) k) = ix2 n k from funext fun a => Fin.ext (by match a with | ⟨0, _⟩ => rfl | ⟨1, _⟩ => rfl)]

/-- Layer 3 of the reference: transposed weights, product, scale, clamp — the hidden layer of the previous activations. -/
theorem layer3 (x0 : (⟨S8192x1024, .f32⟩ : BufTy).Contents (Elt Ideal)) (x1 : (⟨S2048x1024, .f32⟩ : BufTy).Contents (Elt Ideal)) (x2 x3 x4 : (⟨S2048x2048, .f32⟩ : BufTy).Contents (Elt Ideal)) :
    val_main_v19 (F := Ideal) x0 x1 x2 x3 x4 = hidden (M := 8192) (K := 2048) (N := 2048) sHidden floor0 (val_main_v14 (F := Ideal) x0 x1 x2 x3) x4 := by
  funext i
  obtain ⟨r, n, rfl⟩ : ∃ (r : Fin 8192) (n : Fin 2048), i = ix2 r n := ⟨i 0, i 1, eq_ix2 i⟩
  rw [hidden_apply, val_main_v19_apply, val_main_v18_apply, val_main_v16_apply, val_main_v17_apply, val_main_cst_2_apply,
    val_main_call3_v0_apply, val_main_call3_cst_apply]
  simp only [val_main_v15_apply, Ideal.mulf_def, Ideal.maximumf_def, Ideal.ofBits_def]
  refine congrArg (fun u => max (u * sHidden) floor0) (Finset.sum_congr rfl fun k _ => ?_)
  rw [show lidx_main_v16 (ix2 r n) k = ix2 r k from funext fun a => Fin.ext (by match a with | ⟨0, _⟩ => rfl | ⟨1, _⟩ => rfl),
    show idx_main_v15 (ridx_main_v16 (ix2 r n) k) = ix2 n k from funext fun a => Fin.ext (by match a with | ⟨0, _⟩ => rfl | ⟨1, _⟩ => rfl)]

/-- The reference's result is the network of its six arguments. -/
theorem ref_value (x0 : (⟨S8192x1024, .f32⟩ : BufTy).Contents (Elt Ideal)) (x1 : (⟨S2048x1024, .f32⟩ : BufTy).Contents (Elt Ideal)) (x2 x3 x4 : (⟨S2048x2048, .f32⟩ : BufTy).Contents (Elt Ideal)) (x5 : (⟨S2048x128, .f32⟩ : BufTy).Contents (Elt Ideal)) :
    val_main_v22 (F := Ideal) x0 x1 x2 x3 x4 x5 = mlp x0 x1 x2 x3 x4 x5 := by
  funext i
  obtain ⟨r, n, rfl⟩ : ∃ (r : Fin 8192) (n : Fin 128), i = ix2 r n := ⟨i 0, i 1, eq_ix2 i⟩
  unfold mlp
  rw [readout_apply, val_main_v22_apply, val_main_v20_apply, val_main_v21_apply, val_main_cst_3_apply]
  simp only [Ideal.hostDivf_def, Ideal.ofBits_def]
  rw [div_2048_eq_mul]
  refine congrArg (fun u => u * sOut) (Finset.sum_congr rfl fun k _ => ?_)
  rw [show lidx_main_v20 (ix2 r n) k = ix2 r k from funext fun a => Fin.ext (by match a with | ⟨0, _⟩ => rfl | ⟨1, _⟩ => rfl),
    show ridx_main_v20 (ix2 r n) k = ix2 k n from funext fun a => Fin.ext (by match a with | ⟨0, _⟩ => rfl | ⟨1, _⟩ => rfl),
    layer3, layer2, layer1, layer0]

end Cert.ReferenceIdeal.RefValue

end
-- ==== Proof.lean ====
/-
  The kernel is a five-stage network — four hidden layers x ↦ max ((x · Wᵀ) · s, 0) and a linear readout (x · B) · 2^(-11) —
  run as five tiled TensorCore regions over bf16 copies of its arguments; the reference is the same network on the
  host, its readout divided by 2048. At the extended reals a change of float format is the identity, a product into a
  zero accumulator and the host's product are the same sum over the contracted axis, the three scale constants are the
  same words on both sides, and dividing by 2048 is multiplying by 2^(-11) on every extended real. So both programs
  end at one function of the arguments, `Mlp.mlp` (Proof/Layers.lean): the kernel's side is Proof/Network.lean (each
  region's tiles cover its result array with the layer of what the region found), the reference's Proof/RefLayers.lean
  (its stages read at an index). No law used needs finiteness: the precondition is not opened. The three frames are the
  generated ones (the reference's is its generated run with the result dropped); the idealization rewrote nothing, so
  `preserves` is trivial.
-/
import proofs.«153317_j13855564497555_1_alg».proof.Defs
import proofs.«153317_j13855564497555_1_alg».proof.Proof.Gen.Kernel
import proofs.«153317_j13855564497555_1_alg».proof.Proof.Gen.Kernel.Skeleton
import proofs.«153317_j13855564497555_1_alg».proof.Proof.Gen.Kernel.Launch
import proofs.«153317_j13855564497555_1_alg».proof.Proof.Gen.Kernel.Points
import proofs.«153317_j13855564497555_1_alg».proof.Proof.Gen.Kernel.Frame
import proofs.«153317_j13855564497555_1_alg».proof.Proof.Gen.KernelIdeal
import proofs.«153317_j13855564497555_1_alg».proof.Proof.Gen.KernelIdeal.Skeleton
import proofs.«153317_j13855564497555_1_alg».proof.Proof.Gen.KernelIdeal.Launch
import proofs.«153317_j13855564497555_1_alg».proof.Proof.Gen.KernelIdeal.Points
import proofs.«153317_j13855564497555_1_alg».proof.Proof.Gen.KernelIdeal.Frame
import proofs.«153317_j13855564497555_1_alg».proof.Proof.Gen.ReferenceIdeal
import proofs.«153317_j13855564497555_1_alg».proof.Proof.Gen.ReferenceIdeal.Run
import proofs.«153317_j13855564497555_1_alg».proof.Proof.Gen.ReferenceIdeal.Read
import proofs.«153317_j13855564497555_1_alg».proof.Proof.Gen.Pre_finite_inputs
import proofs.«153317_j13855564497555_1_alg».proof.Proof.Network
import proofs.«153317_j13855564497555_1_alg».proof.Proof.RefLayers
import Idealize.ShloMosaic.Adequacy
import Idealize.ShloMosaic.Init

noncomputable section

namespace Cert.Proof

open Idealize.ShloMosaic Idealize.SL.Sem

theorem frame_k : Cert.frame_Kernel :=
  fun m ρ _ => Cert.Kernel.Gen.frame m ρ

theorem frame_ki : Cert.frame_KernelIdeal :=
  fun m ρ _ => Cert.KernelIdeal.Gen.frame m ρ

/-- The reference has no kernel: its frame is its run with the result dropped. -/
theorem frame_ri : Cert.frame_ReferenceIdeal :=
  fun m ρ _ => (θ_run Cert.ReferenceIdeal.defs _ _).mono (fun _ h c => (h c).2) (Cert.ReferenceIdeal.Value.run (F := Ideal) m ρ)

/-- Both programs end at the network of the arguments, which agree. -/
theorem algebraic : Cert.algebraic_KernelIdeal_ReferenceIdeal := by
  intro m ρ m' ρ' _ hagree
  refine ⟨fun c => Cert.Mlp.mlp (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.KernelIdeal.Tiles.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, Cert.ReferenceIdeal.RefValue.ref_value,
    (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
